-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) (main_arg1 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  main_v8
-- ==== Kernel.lean ====
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S8192 : Shape := ⟨1, ![8192]⟩
abbrev S8192x512 : Shape := ⟨2, ![8192, 512]⟩
abbrev S8192x1 : Shape := ⟨2, ![8192, 1]⟩
abbrev S1024x512 : Shape := ⟨2, ![1024, 512]⟩
abbrev S1024x1 : Shape := ⟨2, ![1024, 1]⟩
abbrev S1024x1024 : Shape := ⟨2, ![1024, 1024]⟩
abbrev S512x1024 : Shape := ⟨2, ![512, 1024]⟩
abbrev S1024 : Shape := ⟨1, ![1024]⟩

abbrev nBuf : Space → Nat
  | .hbm => 40
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S4096x512, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x512, .f32⟩
  | .hbm, ⟨16, _⟩ => ⟨S4096x512, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S_, .f32⟩
  | .hbm, ⟨24, _⟩ => ⟨S4096, .f32⟩
  | .hbm, ⟨25, _⟩ => ⟨S8192, .f32⟩
  | .hbm, ⟨26, _⟩ => ⟨S8192x512, .f32⟩
  | .hbm, ⟨27, _⟩ => ⟨S8192x512, .bf16⟩
  | .hbm, ⟨28, _⟩ => ⟨S8192x1, .f32⟩
  | .hbm, ⟨29, _⟩ => ⟨S8192, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S8192, .f32⟩
  | .hbm, ⟨35, _⟩ => ⟨S8192, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .local _ .vmem, ⟨0, _⟩ => ⟨S1024x512, .bf16⟩
  | .local _ .vmem, ⟨1, _⟩ => ⟨S1024x512, .bf16⟩
  | .local _ .vmem, ⟨2, _⟩ => ⟨S8192x512, .bf16⟩
  | .local _ .vmem, ⟨3, _⟩ => ⟨S1024x1, .f32⟩
  | .local _ .vmem, ⟨4, _⟩ => ⟨S1024x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_4 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_5 : Ref sig .tc := ⟨.hbm, 36, rfl⟩
abbrev main_v28 : Ref sig .tc := ⟨.hbm, 37, rfl⟩
abbrev main_cst_6 : Ref sig .tc := ⟨.hbm, 38, rfl⟩
abbrev main_v29 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v7 : BitVec 32 := Scalar.addi c0_i32 c8_i32
  let c1_i32 : BitVec 32 := 1#32
  ⟨c0_i32, v7, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c1024_i32_4 : BitVec 32 := 1024#32
  let v10 : BitVec 32 := Scalar.muli arg4 c1024_i32_4
  v10
def k0_off1 (k0_t1 : Fin k0_t1_loop.trips) : Fin 2 → Nat :=
  let c0_i32 : BitVec 32 := 0#32
  let c1_i32 : BitVec 32 := 1#32
  let arg4 : BitVec 32 := Scf.iv c0_i32 c1_i32 k0_t1
  let c1024_i32_4 : BitVec 32 := 1024#32
  let v10 : BitVec 32 := Scalar.muli arg4 c1024_i32_4
  let v11 : BitVec 32 := v10
  let v12 : Index := Scalar.indexCast v11
  let c0_5 : Index := 0#32
  ![v12.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  concatenates_S4096_S4096_S8192_d0 : Shape.Concatenates [S4096, S4096] S8192 0
  concatenates_S4096x512_S4096x512_S8192x512_d0 : Shape.Concatenates [S4096x512, S4096x512] S8192x512 0
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  iota_S1024x1024_d0_w32 : S1024x1024.Iotas .tc 32 [0]
  transposes_S1024x512_p1_0_S512x1024 : S1024x512.Transposes [1, 0] S512x1024
  iota_S1024x1024_d1_w32 : S1024x1024.Iotas .tc 32 [1]
  reduces_S1024x1024_S1024 : S1024x1024.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  shapeCasts_S8192x1_S8192 : S8192x1.ShapeCasts S8192
  bcast_S_S8192 : S_.BroadcastsInDim S8192 (![] : Fin 0 → Fin S8192.rank)
  reducesTo_S8192_S_d0 : S8192.ReducesTo [0] S_
  dot_S1024x512_S512x1024_S1024x1024_1_0_0_1_n_n_wf : DotDims.WF S1024x512 S512x1024 S1024x1024 [1] [0] [0] [1] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1024x512.size a ≤ S8192x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .bf16 = 32 ∨ (Rect.block (s := S8192x512) S1024x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x512.size a ≤ S8192x512.size a
  hwx0_1 : ∀ i : grid0.Coords, EltTy.bits .bf16 = 32 ∨ (Rect.block (s := S8192x512) S8192x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v20) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S8192x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S8192x512 : Shape := ⟨2, ![8192, 512]⟩
abbrev S512x8192 : Shape := ⟨2, ![512, 8192]⟩
abbrev S8192x8192 : Shape := ⟨2, ![8192, 8192]⟩
abbrev S8192 : Shape := ⟨1, ![8192]⟩

abbrev nBuf : Space → Nat
  | .hbm => 57
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x512, .f32⟩
  | .hbm, ⟨21, _⟩ => ⟨S4096x512, .f32⟩
  | .hbm, ⟨22, _⟩ => ⟨S8192x512, .f32⟩
  | .hbm, ⟨23, _⟩ => ⟨S512x8192, .f32⟩
  | .hbm, ⟨24, _⟩ => ⟨S8192x8192, .f32⟩
  | .hbm, ⟨25, _⟩ => ⟨S4096x512, .f32⟩
  | .hbm, ⟨26, _⟩ => ⟨S_, .f32⟩
  | .hbm, ⟨27, _⟩ => ⟨S4096, .f32⟩
  | .hbm, ⟨28, _⟩ => ⟨S8192, .f32⟩
  | .hbm, ⟨29, _⟩ => ⟨S8192x8192, .i32⟩
  | .hbm, ⟨30, _⟩ => ⟨S8192x8192, .i32⟩
  | .hbm, ⟨31, _⟩ => ⟨S_, .i32⟩
  | .hbm, ⟨32, _⟩ => ⟨S8192x8192, .i32⟩
  | .hbm, ⟨33, _⟩ => ⟨S8192x8192, .i32⟩
  | .hbm, ⟨34, _⟩ => ⟨S8192x8192, .i1⟩
  | .hbm, ⟨35, _⟩ => ⟨S8192x8192, .f32⟩
  | .hbm, ⟨36, _⟩ => ⟨S_, .f32⟩
  | .hbm, ⟨37, _⟩ => ⟨S8192x8192, .f32⟩
  | .hbm, ⟨38, _⟩ => ⟨S8192x8192, .f32⟩
  | .hbm, ⟨39, _⟩ => ⟨S8192x8192, .f32⟩
  | .hbm, ⟨40, _⟩ => ⟨S_, .f32⟩
  | .hbm, ⟨41, _⟩ => ⟨S8192x8192, .f32⟩
  | .hbm, ⟨42, _⟩ => ⟨S8192x8192, .f32⟩
  | .hbm, ⟨43, _⟩ => ⟨S8192x8192, .f32⟩
  | .hbm, ⟨44, _⟩ => ⟨S8192x8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S8192, .f32⟩
  | .hbm, ⟨52, _⟩ => ⟨S8192, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  concatenates_S4096x512_S4096x512_S8192x512_d0 : Shape.Concatenates [S4096x512, S4096x512] S8192x512 0
  transposes_S8192x512_S512x8192_1_0 : S8192x512.Transposes [1, 0] S512x8192
  concatenates_S4096_S4096_S8192_d0 : Shape.Concatenates [S4096, S4096] S8192 0
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.LibSharedTail.lean ====
import Idealize.ShloMosaic.Lib.Pipeline.FrameSuffix

noncomputable section

/-! # The frame run of a one-region pipeline whose windows may share an array, continued by host lines

A kernel handed one array through several input windows holds that array once; the windows on it hold it at shares
that compose to the whole. When @main goes on after the region with lines of host operations, those lines run within
every unscoped buffer of the core, the arrays included: at the region's exit the windows' shares are joined back into
the distinct buffers behind the arrays (hexit), the lines run, and the buffers are dealt to the windows again
(hback), so that the arrays can be read at the end. The lines write no array. -/

namespace Idealize.ShloMosaic.Pipeline

open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open Idealize.ShloMosaic.Rounds
open TcCoe

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

set_option backward.isDefEq.respectTransparency.types false in
/-- THE LINES AFTER THE REGION when windows may share an array. From the region's exit (the boundary, the windows'
    arrays at their final contents, each window at its share, and the bypassing buffers at the entry contents V₀)
    the lines opss run within the core's unscoped buffers held at the exit valuation Wx: the arrays' buffers at what
    the shares join to (hexit), the bypassing buffers as at entry (hWx). They write no array (hkeep), so the
    buffers behind the arrays are dealt back to the windows afterwards (hback), and the bypassing buffers end at the
    lines' StableHlo.after from Wx. -/
theorem shared_tail_seqs (cfgs : P → Cfg sig Λ₀)
    (dats : (p : P) → (c : Dev nD) → Dat τ Val Unit ℕ (UR sig nD τ) ℕ (cfgs p) c) (p : P)
    (hw : WinFacts₀ (cfgs p).spec) (defs₀ : Defs nD τ sig Val Λ₀) (𝒱₀ : Variants) (c : Dev nD)
    (V₀ Wx : Valuation τ sig Val) (opss : List (List (HloOp τ sig Val)))
    (hsub : ∀ ops ∈ opss, ∀ op ∈ ops, op.bufs ⊆ StableHlo.tcRefs τ sig)
    (hfresh : ∀ ops ∈ opss, ∀ op ∈ ops, op.fresh = ∅)
    (hkeep : ∀ ops ∈ opss, ∀ op ∈ ops, ∀ w, Proc.devRef .tc (arrRef (cfgs p).spec w) ∉ op.writes)
    (hexit : (dats p c).arrays ((dats p c).arrAt · (cfgs p).N)
      ⊢ (arrBufs (cfgs p).spec c (fun b => Wx (Proc.devRef .tc b)) : sProp 𝕄))
    (hback : (arrBufs (cfgs p).spec c (fun b => Wx (Proc.devRef .tc b)) : sProp 𝕄)
      ⊢ (dats p c).arrays ((dats p c).arrAt · (cfgs p).N))
    (hWx : ∀ b ∈ restRefs sig (cfgs p).spec, Wx (Proc.devRef .tc b) = V₀ (Proc.devRef .tc b))
    (Q' : PUnit → sProp 𝕄) :
    iprop((iprop((dats p c).arrays ((dats p c).arrAt · (cfgs p).N)
              ∗ unscopedRest (cfgs p).spec c (fun b => StableHlo.after opss.flatten Wx (Proc.devRef .tc b))) -∗ Q' ⟨⟩)
        ∗ boundary (c.tc : Thread nD τ) ∗ (dats p c).arrays ((dats p c).arrAt · (cfgs p).N)
        ∗ unscopedRest (cfgs p).spec c (fun b => V₀ (Proc.devRef .tc b)))
      ⊢ wp frame (wpE (Pipeline.defs (fun q => Cfg.toPCfg (Val := Val) (cfgs q)) defs₀) (Variants.lift 𝒱₀) (c.tc : Thread nD τ) none)
          Set.univ (chain (opss.map StableHlo.seq)) Q' := by
  classical
  have hR : (unscopedRest (cfgs p).spec c (fun b => V₀ (Proc.devRef .tc b)) : sProp 𝕄)
      = unscopedRest (cfgs p).spec c (fun b => Wx (Proc.devRef .tc b)) := by
    unfold unscopedRest
    exact bigSep_congr fun b hb => by dsimp only; rw [hWx b hb]
  have hA' : (arrBufs (cfgs p).spec c (fun b => StableHlo.after opss.flatten Wx (Proc.devRef .tc b)) : sProp 𝕄)
      = arrBufs (cfgs p).spec c (fun b => Wx (Proc.devRef .tc b)) := by
    unfold arrBufs
    refine bigSep_congr fun b hb => ?_
    obtain ⟨w, -, rfl⟩ := Finset.mem_image.mp hb
    dsimp only
    rw [StableHlo.after_of_forall_not_mem _ _ fun op hop => ?_]
    obtain ⟨ops, hops, hop⟩ := List.mem_flatten.mp hop
    exact hkeep ops hops op hop w
  have hH : ∀ W : Valuation τ sig Val, (StableHlo.held (c.tc : Thread nD τ) (ucRefs τ sig) W : sProp 𝕄)
      = iprop((arrBufs (cfgs p).spec c (fun b => W (Proc.devRef .tc b)) : sProp 𝕄) ∗ unscopedRest (cfgs p).spec c (fun b => W (Proc.devRef .tc b))) := fun W => by
    rw [← unscopedBufs_held (Ix := Unit) (Name := ℕ) (U := UR sig nD τ) (Lvl := ℕ) c W]
    exact unscopedBufs_split₀ cfgs p hw.arr_unscoped c (fun b => W (Proc.devRef .tc b))
  rw [← List.append_nil (opss.map StableHlo.seq), hR]
  iintro ⟨Hk, Hb, HA, HR⟩
  iapply (wp_seqs_then (fun q => Cfg.toPCfg (Val := Val) (cfgs q)) defs₀ 𝒱₀ c (ucRefs τ sig) [] opss
    (fun ops hops op hop => sub_ucRefs op (hsub ops hops op hop)) hfresh Wx) $$ [Hb HA HR]
  · isplitl [Hb]; · iexact Hb
    rw [hH Wx]
    isplitl [HA]
    · iapply hexit; iexact HA
    · iexact HR
  iintro Hb
  rw [chain_nil, wp_pure, hH (StableHlo.after opss.flatten Wx), hA']
  imodintro
  iapply Hk
  icases Hb with ⟨-, HA, HR⟩
  isplitl [HA]
  · iapply hback; iexact HA
  · iexact HR

/-- THE FRAME RUN of a one-region pipeline whose windows may share an array, for an @main that goes on after the
    region with the host lines opss (hmain). The layout facts are taken by name, the arrays not required
    distinct (hw). hsplit deals the distinct buffers behind the arrays, whole at the entry contents V₀, to the
    windows at the first point; hexit joins the windows' shares back at the last, into the buffers at the exit
    valuation Wx (which agrees with V₀ off the arrays, hWx), and hback deals them again once the lines, which
    write no array (hkeep), have run. The data's invariant is entered from and returned to the core's scoped buffers
    that are no staging buffer. Conclusion: every window's array ends at arrAt w N, every other unscoped buffer at
    the lines' StableHlo.after from Wx. -/
theorem θ_run_frame_shared_around (cfgs : P → Cfg sig Λ₀)
    (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ Wx : Dev nD → Valuation τ sig Val) (opss : List (List (HloOp τ sig Val)))
    (hsub : ∀ ops ∈ opss, ∀ op ∈ ops, op.bufs ⊆ StableHlo.tcRefs τ sig)
    (hfresh : ∀ ops ∈ opss, ∀ op ∈ ops, op.fresh = ∅)
    (hkeep : ∀ ops ∈ opss, ∀ op ∈ ops, ∀ w, Proc.devRef .tc (arrRef (cfgs p).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hsplit : ∀ c, (arrBufs (cfgs p).spec c (fun b => V₀ c (Proc.devRef .tc b)) : sProp 𝕄)
      ⊢ (dats p c).arrays ((dats p c).arrAt · 0))
    (hexit : ∀ c, (dats p c).arrays ((dats p c).arrAt · (cfgs p).N)
      ⊢ (arrBufs (cfgs p).spec c (fun b => Wx c (Proc.devRef .tc b)) : sProp 𝕄))
    (hback : ∀ c, (arrBufs (cfgs p).spec c (fun b => Wx c (Proc.devRef .tc b)) : sProp 𝕄)
      ⊢ (dats p c).arrays ((dats p c).arrAt · (cfgs p).N))
    (hWx : ∀ c, ∀ b ∈ restRefs sig (cfgs p).spec, Wx c (Proc.devRef .tc b) = V₀ c (Proc.devRef .tc b))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) (s₀ m g)
      (FramePost cfgs dats p (fun c b => StableHlo.after opss.flatten (Wx c) (Proc.devRef .tc b))) := by
  classical
  exact θ_run_region_noSem_pf_tail (Ix := Unit) (Name := ℕ) (U := UR sig nD τ) (Lvl := ℕ)
    (fun q => (cfgs q).toPCfg (Val := Val)) (fun q => (cfgs q).toPCfg_adm) dats () hinj p hw (PreFacts.none _) emb₁ defs₀ 𝒱₀ m g main
    (fun _ => chain (opss.map StableHlo.seq)) hbody hne harr hstage howed
    (Rounds.initOf (cells cfgs hinj) (launchToks cfgs hinj)) .rfl (fun c b => V₀ c (Proc.devRef .tc b)) hmain hsplit
    (fun _ k => k.elim0)
    (fun _ => iprop(emp)) (fun _ => iprop(emp))
    (fun c => unscopedRest (Ix := Unit) (Name := ℕ) (U := UR sig nD τ) (Lvl := ℕ) (cfgs p).spec c (fun b => V₀ c (Proc.devRef .tc b)))
    (fun c => unscopedRest (Ix := Unit) (Name := ℕ) (U := UR sig nD τ) (Lvl := ℕ) (cfgs p).spec c
      (fun b => StableHlo.after opss.flatten (Wx c) (Proc.devRef .tc b)))
    (fun c => by
      rw [unscopedRestP_none]
      iintro HU
      isplitr
      · iempintro
      · iexact HU)
    (fun c => (show _ ⊢ (scopedRest (cfgs p).spec c : sProp 𝕄) from by
      iintro ⟨-, -, HR⟩; iexact HR).trans (hin c))
    (fun c => (hout c).trans (by
      iintro HR
      isplitr
      · iempintro
      · iexact HR))
    (fun c Q' => shared_tail_seqs cfgs dats p hw defs₀ 𝒱₀ c (V₀ c) (Wx c) opss hsub hfresh hkeep (hexit c) (hback c) (hWx c) Q')
    (fun c s => ∀ b ∈ restRefs sig (cfgs p).spec, s.mem ((c.tc : Thread nD τ).loc b) = StableHlo.after opss.flatten (Wx c) (Proc.devRef .tc b))
    (fun c s' => by
      iintro ⟨-, HU, HSI⟩
      unfold unscopedRest
      imodintro
      iapply (pointsTo_read_all (restRefs sig (cfgs p).spec) (fun b => (c.tc : Thread nD τ).loc b)
        (fun b => StableHlo.after opss.flatten (Wx c) (Proc.devRef .tc b)) s')
      isplitl [HU] <;> iassumption)
    (fun s h c => ⟨(h c).1, (h c).2.2⟩)

end Idealize.ShloMosaic.Pipeline

end
-- ==== Proof.FrameK.lean ====
import proofs.«155286_j21260088115612_1_alg».proof.Proof.Gen.Kernel.Launch
import proofs.«155286_j21260088115612_1_alg».proof.Proof.Gen.Kernel.Skeleton
import proofs.«155286_j21260088115612_1_alg».proof.Proof.Gen.Kernel.Loops
import proofs.«155286_j21260088115612_1_alg».proof.Proof.Gen.Kernel.Points
import proofs.«155286_j21260088115612_1_alg».proof.Proof.LibSharedTail
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its one region

The host operations before the region compute the normalised rows; the region reads them through two windows on the
same array and writes the row sums; the host operations after it fold the sums into the loss. -/

/-- The core's buffer contents when the region is entered: the launch memory after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the earlier host lines, the region, the later host lines: it reduces to the region continued by
    the later lines, entered at V. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row window's staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The resident window's staging buffer holds the whole array at every point, fetched at the first only. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Each window's current staging memref at point t, as the pipeline passes it to the body, and its wholeness. -/
abbrev ms0_0 (t : Fin cfg0.N) : Memref sig .tc .vmem S1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)

/-! ## The body's run -/

/-- The one rectangle the body stores through: the whole output block. -/
abbrev rOut : Rect S1024x1 := Rect.unit (s := S1024x1) ![0, 0] S1024x1.size inb_S1024x1_S1024x1_0_0

/-- What the body leaves in the output block, from the two input blocks: the loop's carried column of partial sums
    after its last trip (the generated recursion over the trips, started from the zero column), stored whole. -/
def outv (c : Dev nD) (i : grid0.Coords) (arg1 : Memref sig .tc .vmem S1024x512 .bf16) (harg1 : arg1.IsWhole) (arg2 : Memref sig .tc .vmem S8192x512 .bf16) (harg2 : arg2.IsWhole) (arg3 : Memref sig .tc .vmem S1024x1 .f32) (harg3 : arg3.IsWhole)
    (x0 : Vec F S1024x512 .bf16) (x1 : Vec F S8192x512 .bf16) : Vec F S1024x1 .f32 :=
  View.canon [⟨rOut, st_k0_t1 (F := F) Variants.none c none i arg1 harg1 arg2 harg2 arg3 harg3
    (View.readAt (Elt F) arg1.view (Rect.unit (s := S1024x512) ![0, 0] S1024x512.size inb_S1024x512_S1024x512_0_0).toLoadRect (harg1.unread x0))
    (harg2.unread x1) (k0_pay1 (F := F)) (Scf.trips k0_t1_loop.lb k0_t1_loop.ub k0_t1_loop.st)⟩]

/-- The one store tiles the output block. -/
theorem coverOut (p0 : Vec F S1024x1 .f32) (y : S1024x1.Idx) :
    ∃ pc ∈ ([⟨rOut, p0⟩] : List (View.Piece (Elt F) S1024x1 .f32)), y ∈ pc.1.set :=
  View.cover_of_tiled [⟨rOut, p0⟩] S1024x1.size (by rfl) y

set_option maxHeartbeats 1000000 in
/-- The body on whole staging memrefs, the two inputs at read contents and the output at anything, runs to the
    continuation holding the inputs as they were and the output at outv of them: the counted loop is passed by its
    generated invariant, the carried column read after the last trip. -/
theorem sound_kernel (c : Dev nD) (E : Set ℕ) (i : grid0.Coords) (arg1 : Memref sig .tc .vmem S1024x512 .bf16) (harg1 : arg1.IsWhole) (arg2 : Memref sig .tc .vmem S8192x512 .bf16) (harg2 : arg2.IsWhole) (arg3 : Memref sig .tc .vmem S1024x1 .f32) (harg3 : arg3.IsWhole)
    (x0 : Vec F S1024x512 .bf16) (x1 : Vec F S8192x512 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (outv c i arg1 harg1 arg2 harg2 arg3 harg3 x0 x1)) -∗ K ⟨⟩))
      ⊢ wp frame (wpE (defs₀ (F := F)) Variants.none c none) E (cc0__denom_kernel i arg1 harg1 arg2 harg2 arg3 harg3) K := by
  simp only [cc0__denom_kernel_eq_skeleton]; unfold cc0__denom_kernel_skel
  unfold owns
  iintro ⟨⟨%f0, %hf0, H0⟩, ⟨%f1, %hf1, H1⟩, ⟨%d2, %f2, -, H2⟩, Hk⟩
  obtain rfl := harg1.eq_unread hf0; obtain rfl := harg2.eq_unread hf1
  sl_exec
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H2
  ipureintro
  exact View.read_writes_eq_canon _ _ _ (coverOut _)

/-! ## The pipeline's proof data -/

/-- What the body leaves in the output window at point t: outv of the point's two input blocks, on the staging
    memrefs the pipeline passes there. -/
def out0 (c : Dev nD) (t : Fin cfg0.N) : Vec F S1024x1 .f32 :=
  outv c (grid0.coords t) (ms0_0 t) (hs0_0 t) (ms0_1 t) (hs0_1 t) (ms0_2 t) (hs0_2 t) (iblk m c 0 t) (iblk m c 1 t)

/-- The proof data on core c. The arrays are the region-entry contents; the body leaves each input block in place
    and out0 in the output; the two input windows, which stage one array, hold it at the two halves of the full
    share; the invariant is the scoped buffers that are no staging buffer; nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0 m c t
  Φ _ := Pipeline.scopedRest spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The launch: one array behind two windows -/

/-- The distinct buffers behind the three windows' arrays: the normalised rows, staged by both input windows, and
    the row sums. -/
theorem arrRefs_eq : Finset.univ.image (Pipeline.arrRef spec0) = {main_v20, main_v21} := by decide

/-- The windows' arrays at contents G, window by window: the two input windows hold the rows' buffer at the two
    halves of the full share, the output window holds the sums' buffer whole. -/
theorem arrays_eq3 (c : Dev nD) (G : (w : Fin cfg0.W) → Buf (Elt F) ((cfg0.win w).arr.view.loc (c.tc : Thread nD τ))) :
    ((dats m 0 c).arrays G : sProp 𝕄)
      = iprop((((c.tc : Thread nD τ).loc (Pipeline.arrRef spec0 0)) ↦{fullShare.left} G 0)
          ∗ (((c.tc : Thread nD τ).loc (Pipeline.arrRef spec0 1)) ↦{fullShare.right} G 1)
          ∗ (((c.tc : Thread nD τ).loc (Pipeline.arrRef spec0 2)) ↦{fullShare} G 2)) := by
  unfold Dat.arrays
  rw [bigSep_W0, (arr_whole0 0).set_eq_univ, (arr_whole0 2).set_eq_univ]
  rfl

/-- The buffers behind the arrays at contents X: the rows' buffer and the sums' buffer, each whole. -/
theorem arrBufs_eq2 (c : Dev nD) (X : (b : Ref sig .tc) → Buf (Elt F) ((c.tc : Thread nD τ).loc b)) :
    (Pipeline.arrBufs spec0 c X : sProp 𝕄)
      = iprop((((c.tc : Thread nD τ).loc main_v20) ↦{fullShare} X main_v20) ∗ (((c.tc : Thread nD τ).loc main_v21) ↦{fullShare} X main_v21)) := by
  unfold Pipeline.arrBufs
  rw [arrRefs_eq, bigSep_insert (by decide), bigSep_singleton]
  rfl

/-- An input window's array is never written: at every point it holds the region-entry contents. -/
theorem arrAt_in0 (c : Dev nD) (n : Nat) : (dats m 0 c).arrAt 0 n = V m c main_v20 :=
  ((dats m 0 c).arrAt_in 0 rfl n).trans (A_eq m c 0)
theorem arrAt_in1 (c : Dev nD) (n : Nat) : (dats m 0 c).arrAt 1 n = V m c main_v20 :=
  ((dats m 0 c).arrAt_in 1 rfl n).trans (A_eq m c 1)

/-- The core's buffer contents when the region is left: as entered, but for the row sums' buffer, which holds
    what the write-backs left. -/
def Wx (c : Dev nD) : Valuation τ sig (Elt F) :=
  Function.update (V0 m c) (Proc.devRef .tc main_v21) ((dats m 0 c).arrAt 2 cfg0.N)

theorem Wx_v21 (c : Dev nD) : Wx m c (Proc.devRef .tc main_v21) = (dats m 0 c).arrAt 2 cfg0.N := by
  unfold Wx; exact Function.update_self _ _ _
theorem Wx_of_ne (c : Dev nD) (b : Ref sig .tc) (hb : b ≠ main_v21) : Wx m c (Proc.devRef .tc b) = V0 m c (Proc.devRef .tc b) := by
  unfold Wx; exact Function.update_of_ne (fun e => hb (Proc.devRef_injective _ e)) _ _

/-- Entering: the rows' buffer, whole, is dealt to the two input windows by halves. -/
theorem hsplit (c : Dev nD) : (Pipeline.arrBufs spec0 c (fun b => V0 m c (Proc.devRef .tc b)) : sProp 𝕄)
    ⊢ (dats m 0 c).arrays ((dats m 0 c).arrAt · 0) := by
  rw [arrBufs_eq2, arrays_eq3]
  iintro ⟨H20, H21⟩
  ihave H := (pointsTo_share (PosShare.mem_left_op_right fullShare)).1 $$ H20
  icases H with ⟨Hl, Hr⟩
  isplitl [Hl]; · iexact Hl
  isplitl [Hr]; · iexact Hr
  iexact H21

/-- Leaving: the two halves join to the rows' buffer, whole, at its entry contents; the sums' buffer is whole. -/
theorem hexit (c : Dev nD) : ((dats m 0 c).arrays ((dats m 0 c).arrAt · cfg0.N) : sProp 𝕄)
    ⊢ Pipeline.arrBufs spec0 c (fun b => Wx m c (Proc.devRef .tc b)) := by
  rw [arrBufs_eq2, arrays_eq3, arrAt_in0, arrAt_in1, Wx_v21, Wx_of_ne m c main_v20 (by decide)]
  iintro ⟨Hl, Hr, H21⟩
  isplitl [Hl Hr]
  · iapply (pointsTo_share (PosShare.mem_left_op_right fullShare)).2
    isplitl [Hl]; · iexact Hl
    iexact Hr
  iexact H21

/-- And back: the rows' buffer is dealt to the input windows again. -/
theorem hback (c : Dev nD) : (Pipeline.arrBufs spec0 c (fun b => Wx m c (Proc.devRef .tc b)) : sProp 𝕄)
    ⊢ (dats m 0 c).arrays ((dats m 0 c).arrAt · cfg0.N) := by
  rw [arrBufs_eq2, arrays_eq3, arrAt_in0, arrAt_in1, Wx_v21, Wx_of_ne m c main_v20 (by decide)]
  iintro ⟨H20, H21⟩
  ihave H := (pointsTo_share (PosShare.mem_left_op_right fullShare)).1 $$ H20
  icases H with ⟨Hl, Hr⟩
  isplitl [Hl]; · iexact Hl
  isplitl [Hr]; · iexact Hr
  iexact H21

theorem hWx (c : Dev nD) : ∀ b ∈ Pipeline.restRefs sig spec0, Wx m c (Proc.devRef .tc b) = V0 m c (Proc.devRef .tc b) := fun b hb =>
  Wx_of_ne m c b fun e => (Finset.mem_sdiff.mp hb).2 (Finset.mem_image.mpr ⟨2, Finset.mem_univ _, e.symm⟩)

/-- The lines after the region touch TensorCore buffers only, allocate nothing, and write no array. -/
theorem sfx_sub : ∀ ops ∈ ([hostOps1] : List (List (HloOp τ sig (Elt F)))), ∀ op ∈ ops, op.bufs ⊆ StableHlo.tcRefs τ sig := by
  intro ops hops op hop
  simp only [List.mem_cons, List.mem_nil_iff, or_false] at hops
  rcases hops with rfl
  exact (List.forall_iff_forall_mem.mp hostOps1_sub) op hop
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl
  all_goals intro w; fin_cases w <;> simp only [StableHlo.nullary_writes, StableHlo.unary_writes, StableHlo.binary_writes, StableHlo.reshape_writes, Finset.mem_singleton] <;> exact StableHlo.devRef_ne_of_ne (by decide)

set_option backward.isDefEq.respectTransparency.types false in
/-- Every weakly fair execution of the program terminates; at the end each window's array holds what the
    write-backs left, and every other unscoped buffer what the later host lines leave from the region's exit. -/
theorem run_main : θ_run defs (onTc (τ := τ) (main (F := F))) (s₀ m ρ)
    (Pipeline.FramePost cfgs (dats m) 0 (fun c b => StableHlo.after (List.flatten [hostOps1]) (Wx m c) (Proc.devRef .tc b))) :=
  Pipeline.θ_run_frame_shared_around cfgs (dats m) (0 : Fin 1) cellOf_inj winFacts₀0 block_pos0 arr_whole0 stage_whole0 defs₀ Variants.none m ρ main
    (hbody := fun c => (body_obligation m c).loose) (howed := fun _ _ => rfl)
    (V₀ := V0 m) (Wx := Wx m) (opss := [hostOps1]) (hsub := sfx_sub) (hfresh := sfx_fresh) (hkeep := sfx_keeps)
    (hmain := hmain m Variants.none) (hsplit := hsplit m) (hexit := hexit m) (hback := hback m) (hWx := hWx m)
    (hin := fun c => .rfl) (hout := fun c => .rfl)

/-! ## The argument arrays end unchanged; the result is named -/

/-- No host operation before the region writes an argument array. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-- Nor does one after it. -/
theorem W_main_arg0 (c : Dev nD) :
    StableHlo.after (List.flatten [hostOps1]) (Wx m c) (Proc.devRef .tc main_arg0) = m ((c : Thread nD τ).loc main_arg0) := by
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide))),
    Wx_of_ne m c main_arg0 (by decide)]
  exact V_main_arg0 m c
theorem W_main_arg1 (c : Dev nD) :
    StableHlo.after (List.flatten [hostOps1]) (Wx m c) (Proc.devRef .tc main_arg1) = m ((c : Thread nD τ).loc main_arg1) := by
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide))),
    Wx_of_ne m c main_arg1 (by decide)]
  exact V_main_arg1 m c

/-- The run with the result named: the loss buffer ends at what the later host lines compute from the region's
    exit contents, and the two argument arrays end as launched. -/
theorem run_named : θ_run defs (onTc (τ := τ) (main (F := F))) ⟨m, fun _ => 0, ρ⟩ (fun r => ∀ c : Dev nD,
      r.2.mem ((c.tc : Thread nD τ).loc main_v29) = StableHlo.after (List.flatten [hostOps1]) (Wx m c) (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c).2 main_v29 (Pipeline.mem_restRefs_of main_v29 (by decide) (by decide)),
      ((h c).2 main_arg0 (Pipeline.mem_restRefs_of main_arg0 (by decide) (by decide))).trans (W_main_arg0 m c),
      ((h c).2 main_arg1 (Pipeline.mem_restRefs_of main_arg1 (by decide) (by decide))).trans (W_main_arg1 m c)⟩) (run_main m ρ)

/-- The frame: the program runs to the end and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_named m ρ)

end Cert.Kernel.Fr

end
-- ==== Proof.FrameKI.lean ====
import proofs.«155286_j21260088115612_1_alg».proof.Proof.Gen.KernelIdeal.Launch
import proofs.«155286_j21260088115612_1_alg».proof.Proof.Gen.KernelIdeal.Skeleton
import proofs.«155286_j21260088115612_1_alg».proof.Proof.Gen.KernelIdeal.Loops
import proofs.«155286_j21260088115612_1_alg».proof.Proof.Gen.KernelIdeal.Points
import proofs.«155286_j21260088115612_1_alg».proof.Proof.LibSharedTail
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its one region

The host operations before the region compute the normalised rows; the region reads them through two windows on the
same array and writes the row sums; the host operations after it fold the sums into the loss. -/

/-- The core's buffer contents when the region is entered: the launch memory after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the earlier host lines, the region, the later host lines: it reduces to the region continued by
    the later lines, entered at V. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row window's staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The resident window's staging buffer holds the whole array at every point, fetched at the first only. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Each window's current staging memref at point t, as the pipeline passes it to the body, and its wholeness. -/
abbrev ms0_0 (t : Fin cfg0.N) : Memref sig .tc .vmem S1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)

/-! ## The body's run -/

/-- The one rectangle the body stores through: the whole output block. -/
abbrev rOut : Rect S1024x1 := Rect.unit (s := S1024x1) ![0, 0] S1024x1.size inb_S1024x1_S1024x1_0_0

/-- What the body leaves in the output block, from the two input blocks: the loop's carried column of partial sums
    after its last trip (the generated recursion over the trips, started from the zero column), stored whole. -/
def outv (c : Dev nD) (i : grid0.Coords) (arg1 : Memref sig .tc .vmem S1024x512 .bf16) (harg1 : arg1.IsWhole) (arg2 : Memref sig .tc .vmem S8192x512 .bf16) (harg2 : arg2.IsWhole) (arg3 : Memref sig .tc .vmem S1024x1 .f32) (harg3 : arg3.IsWhole)
    (x0 : Vec F S1024x512 .bf16) (x1 : Vec F S8192x512 .bf16) : Vec F S1024x1 .f32 :=
  View.canon [⟨rOut, st_k0_t1 (F := F) Variants.none c none i arg1 harg1 arg2 harg2 arg3 harg3
    (View.readAt (Elt F) arg1.view (Rect.unit (s := S1024x512) ![0, 0] S1024x512.size inb_S1024x512_S1024x512_0_0).toLoadRect (harg1.unread x0))
    (harg2.unread x1) (k0_pay1 (F := F)) (Scf.trips k0_t1_loop.lb k0_t1_loop.ub k0_t1_loop.st)⟩]

/-- The one store tiles the output block. -/
theorem coverOut (p0 : Vec F S1024x1 .f32) (y : S1024x1.Idx) :
    ∃ pc ∈ ([⟨rOut, p0⟩] : List (View.Piece (Elt F) S1024x1 .f32)), y ∈ pc.1.set :=
  View.cover_of_tiled [⟨rOut, p0⟩] S1024x1.size (by rfl) y

set_option maxHeartbeats 1000000 in
/-- The body on whole staging memrefs, the two inputs at read contents and the output at anything, runs to the
    continuation holding the inputs as they were and the output at outv of them: the counted loop is passed by its
    generated invariant, the carried column read after the last trip. -/
theorem sound_kernel (c : Dev nD) (E : Set ℕ) (i : grid0.Coords) (arg1 : Memref sig .tc .vmem S1024x512 .bf16) (harg1 : arg1.IsWhole) (arg2 : Memref sig .tc .vmem S8192x512 .bf16) (harg2 : arg2.IsWhole) (arg3 : Memref sig .tc .vmem S1024x1 .f32) (harg3 : arg3.IsWhole)
    (x0 : Vec F S1024x512 .bf16) (x1 : Vec F S8192x512 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (outv c i arg1 harg1 arg2 harg2 arg3 harg3 x0 x1)) -∗ K ⟨⟩))
      ⊢ wp frame (wpE (defs₀ (F := F)) Variants.none c none) E (cc0__denom_kernel i arg1 harg1 arg2 harg2 arg3 harg3) K := by
  simp only [cc0__denom_kernel_eq_skeleton]; unfold cc0__denom_kernel_skel
  unfold owns
  iintro ⟨⟨%f0, %hf0, H0⟩, ⟨%f1, %hf1, H1⟩, ⟨%d2, %f2, -, H2⟩, Hk⟩
  obtain rfl := harg1.eq_unread hf0; obtain rfl := harg2.eq_unread hf1
  sl_exec
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H2
  ipureintro
  exact View.read_writes_eq_canon _ _ _ (coverOut _)

/-! ## The pipeline's proof data -/

/-- What the body leaves in the output window at point t: outv of the point's two input blocks, on the staging
    memrefs the pipeline passes there. -/
def out0 (c : Dev nD) (t : Fin cfg0.N) : Vec F S1024x1 .f32 :=
  outv c (grid0.coords t) (ms0_0 t) (hs0_0 t) (ms0_1 t) (hs0_1 t) (ms0_2 t) (hs0_2 t) (iblk m c 0 t) (iblk m c 1 t)

/-- The proof data on core c. The arrays are the region-entry contents; the body leaves each input block in place
    and out0 in the output; the two input windows, which stage one array, hold it at the two halves of the full
    share; the invariant is the scoped buffers that are no staging buffer; nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0 m c t
  Φ _ := Pipeline.scopedRest spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The launch: one array behind two windows -/

/-- The distinct buffers behind the three windows' arrays: the normalised rows, staged by both input windows, and
    the row sums. -/
theorem arrRefs_eq : Finset.univ.image (Pipeline.arrRef spec0) = {main_v20, main_v21} := by decide

/-- The windows' arrays at contents G, window by window: the two input windows hold the rows' buffer at the two
    halves of the full share, the output window holds the sums' buffer whole. -/
theorem arrays_eq3 (c : Dev nD) (G : (w : Fin cfg0.W) → Buf (Elt F) ((cfg0.win w).arr.view.loc (c.tc : Thread nD τ))) :
    ((dats m 0 c).arrays G : sProp 𝕄)
      = iprop((((c.tc : Thread nD τ).loc (Pipeline.arrRef spec0 0)) ↦{fullShare.left} G 0)
          ∗ (((c.tc : Thread nD τ).loc (Pipeline.arrRef spec0 1)) ↦{fullShare.right} G 1)
          ∗ (((c.tc : Thread nD τ).loc (Pipeline.arrRef spec0 2)) ↦{fullShare} G 2)) := by
  unfold Dat.arrays
  rw [bigSep_W0, (arr_whole0 0).set_eq_univ, (arr_whole0 2).set_eq_univ]
  rfl

/-- The buffers behind the arrays at contents X: the rows' buffer and the sums' buffer, each whole. -/
theorem arrBufs_eq2 (c : Dev nD) (X : (b : Ref sig .tc) → Buf (Elt F) ((c.tc : Thread nD τ).loc b)) :
    (Pipeline.arrBufs spec0 c X : sProp 𝕄)
      = iprop((((c.tc : Thread nD τ).loc main_v20) ↦{fullShare} X main_v20) ∗ (((c.tc : Thread nD τ).loc main_v21) ↦{fullShare} X main_v21)) := by
  unfold Pipeline.arrBufs
  rw [arrRefs_eq, bigSep_insert (by decide), bigSep_singleton]
  rfl

/-- An input window's array is never written: at every point it holds the region-entry contents. -/
theorem arrAt_in0 (c : Dev nD) (n : Nat) : (dats m 0 c).arrAt 0 n = V m c main_v20 :=
  ((dats m 0 c).arrAt_in 0 rfl n).trans (A_eq m c 0)
theorem arrAt_in1 (c : Dev nD) (n : Nat) : (dats m 0 c).arrAt 1 n = V m c main_v20 :=
  ((dats m 0 c).arrAt_in 1 rfl n).trans (A_eq m c 1)

/-- The core's buffer contents when the region is left: as entered, but for the row sums' buffer, which holds
    what the write-backs left. -/
def Wx (c : Dev nD) : Valuation τ sig (Elt F) :=
  Function.update (V0 m c) (Proc.devRef .tc main_v21) ((dats m 0 c).arrAt 2 cfg0.N)

theorem Wx_v21 (c : Dev nD) : Wx m c (Proc.devRef .tc main_v21) = (dats m 0 c).arrAt 2 cfg0.N := by
  unfold Wx; exact Function.update_self _ _ _
theorem Wx_of_ne (c : Dev nD) (b : Ref sig .tc) (hb : b ≠ main_v21) : Wx m c (Proc.devRef .tc b) = V0 m c (Proc.devRef .tc b) := by
  unfold Wx; exact Function.update_of_ne (fun e => hb (Proc.devRef_injective _ e)) _ _

/-- Entering: the rows' buffer, whole, is dealt to the two input windows by halves. -/
theorem hsplit (c : Dev nD) : (Pipeline.arrBufs spec0 c (fun b => V0 m c (Proc.devRef .tc b)) : sProp 𝕄)
    ⊢ (dats m 0 c).arrays ((dats m 0 c).arrAt · 0) := by
  rw [arrBufs_eq2, arrays_eq3]
  iintro ⟨H20, H21⟩
  ihave H := (pointsTo_share (PosShare.mem_left_op_right fullShare)).1 $$ H20
  icases H with ⟨Hl, Hr⟩
  isplitl [Hl]; · iexact Hl
  isplitl [Hr]; · iexact Hr
  iexact H21

/-- Leaving: the two halves join to the rows' buffer, whole, at its entry contents; the sums' buffer is whole. -/
theorem hexit (c : Dev nD) : ((dats m 0 c).arrays ((dats m 0 c).arrAt · cfg0.N) : sProp 𝕄)
    ⊢ Pipeline.arrBufs spec0 c (fun b => Wx m c (Proc.devRef .tc b)) := by
  rw [arrBufs_eq2, arrays_eq3, arrAt_in0, arrAt_in1, Wx_v21, Wx_of_ne m c main_v20 (by decide)]
  iintro ⟨Hl, Hr, H21⟩
  isplitl [Hl Hr]
  · iapply (pointsTo_share (PosShare.mem_left_op_right fullShare)).2
    isplitl [Hl]; · iexact Hl
    iexact Hr
  iexact H21

/-- And back: the rows' buffer is dealt to the input windows again. -/
theorem hback (c : Dev nD) : (Pipeline.arrBufs spec0 c (fun b => Wx m c (Proc.devRef .tc b)) : sProp 𝕄)
    ⊢ (dats m 0 c).arrays ((dats m 0 c).arrAt · cfg0.N) := by
  rw [arrBufs_eq2, arrays_eq3, arrAt_in0, arrAt_in1, Wx_v21, Wx_of_ne m c main_v20 (by decide)]
  iintro ⟨H20, H21⟩
  ihave H := (pointsTo_share (PosShare.mem_left_op_right fullShare)).1 $$ H20
  icases H with ⟨Hl, Hr⟩
  isplitl [Hl]; · iexact Hl
  isplitl [Hr]; · iexact Hr
  iexact H21

theorem hWx (c : Dev nD) : ∀ b ∈ Pipeline.restRefs sig spec0, Wx m c (Proc.devRef .tc b) = V0 m c (Proc.devRef .tc b) := fun b hb =>
  Wx_of_ne m c b fun e => (Finset.mem_sdiff.mp hb).2 (Finset.mem_image.mpr ⟨2, Finset.mem_univ _, e.symm⟩)

/-- The lines after the region touch TensorCore buffers only, allocate nothing, and write no array. -/
theorem sfx_sub : ∀ ops ∈ ([hostOps1] : List (List (HloOp τ sig (Elt F)))), ∀ op ∈ ops, op.bufs ⊆ StableHlo.tcRefs τ sig := by
  intro ops hops op hop
  simp only [List.mem_cons, List.mem_nil_iff, or_false] at hops
  rcases hops with rfl
  exact (List.forall_iff_forall_mem.mp hostOps1_sub) op hop
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl
  all_goals intro w; fin_cases w <;> simp only [StableHlo.nullary_writes, StableHlo.unary_writes, StableHlo.binary_writes, StableHlo.reshape_writes, Finset.mem_singleton] <;> exact StableHlo.devRef_ne_of_ne (by decide)

set_option backward.isDefEq.respectTransparency.types false in
/-- Every weakly fair execution of the program terminates; at the end each window's array holds what the
    write-backs left, and every other unscoped buffer what the later host lines leave from the region's exit. -/
theorem run_main : θ_run defs (onTc (τ := τ) (main (F := F))) (s₀ m ρ)
    (Pipeline.FramePost cfgs (dats m) 0 (fun c b => StableHlo.after (List.flatten [hostOps1]) (Wx m c) (Proc.devRef .tc b))) :=
  Pipeline.θ_run_frame_shared_around cfgs (dats m) (0 : Fin 1) cellOf_inj winFacts₀0 block_pos0 arr_whole0 stage_whole0 defs₀ Variants.none m ρ main
    (hbody := fun c => (body_obligation m c).loose) (howed := fun _ _ => rfl)
    (V₀ := V0 m) (Wx := Wx m) (opss := [hostOps1]) (hsub := sfx_sub) (hfresh := sfx_fresh) (hkeep := sfx_keeps)
    (hmain := hmain m Variants.none) (hsplit := hsplit m) (hexit := hexit m) (hback := hback m) (hWx := hWx m)
    (hin := fun c => .rfl) (hout := fun c => .rfl)

/-! ## The argument arrays end unchanged; the result is named -/

/-- No host operation before the region writes an argument array. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-- Nor does one after it. -/
theorem W_main_arg0 (c : Dev nD) :
    StableHlo.after (List.flatten [hostOps1]) (Wx m c) (Proc.devRef .tc main_arg0) = m ((c : Thread nD τ).loc main_arg0) := by
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide))),
    Wx_of_ne m c main_arg0 (by decide)]
  exact V_main_arg0 m c
theorem W_main_arg1 (c : Dev nD) :
    StableHlo.after (List.flatten [hostOps1]) (Wx m c) (Proc.devRef .tc main_arg1) = m ((c : Thread nD τ).loc main_arg1) := by
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide))),
    Wx_of_ne m c main_arg1 (by decide)]
  exact V_main_arg1 m c

/-- The run with the result named: the loss buffer ends at what the later host lines compute from the region's
    exit contents, and the two argument arrays end as launched. -/
theorem run_named : θ_run defs (onTc (τ := τ) (main (F := F))) ⟨m, fun _ => 0, ρ⟩ (fun r => ∀ c : Dev nD,
      r.2.mem ((c.tc : Thread nD τ).loc main_v29) = StableHlo.after (List.flatten [hostOps1]) (Wx m c) (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c).2 main_v29 (Pipeline.mem_restRefs_of main_v29 (by decide) (by decide)),
      ((h c).2 main_arg0 (Pipeline.mem_restRefs_of main_arg0 (by decide) (by decide))).trans (W_main_arg0 m c),
      ((h c).2 main_arg1 (Pipeline.mem_restRefs_of main_arg1 (by decide) (by decide))).trans (W_main_arg1 m c)⟩) (run_main m ρ)

/-- The frame: the program runs to the end and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_named m ρ)

end Cert.KernelIdeal.Fr

end
-- ==== Proof.Spec.lean ====
import Idealize.ShloMosaic.PureOps.Ideal
import Idealize.ShloMosaic.PureOps.Ideal.Laws
import Idealize.ShloMosaic.Lib.ValueIdx

noncomputable section

/-! # The contrastive denominator, entry by entry

For an array z of 8192 rows of 512 entries, row r's denominator is the sum over every other row c of
exp (2 |<z_r, z_c>|): the diagonal term is left out. Both programs compute it, the kernel block by block with an index
mask, the reference from the whole similarity matrix with an arithmetic mask. -/

namespace Cert.Spec

open Idealize.ShloMosaic Idealize.ShloMosaic.ValueIdx
open scoped BigOperators

/-- The scale 2.0 as both programs spell it: the kernel multiplies by this word, the reference divides by the word of
    one half. -/
abbrev two : EReal := Ideal.ofBits .f32 0x40000000#32

/-- The inner product of rows r and c. -/
def sim (z : (⟨2, ![8192, 512]⟩ : Shape).Idx → EReal) (r c : Fin 8192) : EReal :=
  ∑ k : Fin 512, z (ix2 r k) * z (ix2 c k)

/-- One entry of the masked exponential: nothing on the diagonal, exp (2 |<z_r, z_c>|) off it. -/
def term (z : (⟨2, ![8192, 512]⟩ : Shape).Idx → EReal) (r c : Fin 8192) : EReal :=
  if r = c then 0 else Ideal.exp (max (sim z r c) (-(sim z r c)) * two)

/-- Row r's denominator. -/
def denom (z : (⟨2, ![8192, 512]⟩ : Shape).Idx → EReal) (r : Fin 8192) : EReal :=
  ∑ c : Fin 8192, term z r c

/-- The position of row q of block t among the 8192 rows. -/
def rowOf (t : Fin 8) (q : Fin 1024) : Fin 8192 := ⟨t.val * 1024 + q.val, by have := t.isLt; have := q.isLt; omega⟩

/-- A sum over the 8192 rows is the sum over 8 blocks of 1024. -/
theorem sum_blocks {M : Type} [AddCommMonoid M] (f : Fin 8192 → M) :
    ∑ c : Fin 8192, f c = ∑ k : Fin 8, ∑ j : Fin 1024, f (rowOf k j) := by
  rw [← Finset.sum_product', Finset.univ_product_univ, ← (finProdFinEquiv : Fin 8 × Fin 1024 ≃ Fin 8192).sum_comp f]
  refine Finset.sum_congr rfl fun x _ => congrArg f (Fin.ext ?_)
  show ((finProdFinEquiv : Fin 8 × Fin 1024 ≃ Fin 8192) x).val = x.1.val * 1024 + x.2.val
  rw [finProdFinEquiv_apply_val]; omega

end Cert.Spec

end
-- ==== Proof.RefDenom.lean ====
import proofs.«155286_j21260088115612_1_alg».proof.Proof.Gen.ReferenceIdeal.Read
import proofs.«155286_j21260088115612_1_alg».proof.Proof.Spec
import Idealize.ShloMosaic.PureOps.Ideal.Laws
import Idealize.ShloMosaic.Lib.ValueIdx
import Idealize.ShloMosaic.Lib.Pipeline.Value

noncomputable section

namespace Cert.RefSide

open Cert.ReferenceIdeal Cert.ReferenceIdeal.Read Idealize.ShloMosaic Idealize.ShloMosaic.ValueIdx Idealize.SL.Sem
open scoped BigOperators

/-- The word of 1.0. -/
private theorem ofBits_one : Ideal.ofBits .f32 0x3F800000#32 = 1 := by
  simp [Ideal.ofBits, Ideal.ieee, -EReal.coe_mul]; norm_num

/-- The word of 0.5. -/
private theorem ofBits_half : Ideal.ofBits .f32 0x3F000000#32 = ((1 / 2 : ℝ) : EReal) := by
  simp [Ideal.ofBits, Ideal.ieee, -EReal.coe_mul]; norm_num

/-- The word of 2.0. -/
private theorem ofBits_two : Ideal.ofBits .f32 0x40000000#32 = ((2 : ℝ) : EReal) := by
  simp [Ideal.ofBits, Ideal.ieee, -EReal.coe_mul]; norm_num

/-- The contraction read at row r and column c is the inner product of rows r and c. -/
private theorem dot_eq_sim (y : S8192x512.Idx → EReal) (r c : Fin 8192) :
    (∑ k : Fin 512, y (lidx_main_v12 (idx_main_v29 (ix1 r) c) k) *
        y (idx_main_v11 (ridx_main_v12 (idx_main_v29 (ix1 r) c) k))) = Cert.Spec.sim y r c := by
  unfold Cert.Spec.sim
  refine Finset.sum_congr rfl fun k _ => ?_
  have el : lidx_main_v12 (idx_main_v29 (ix1 r) c) k = ix2 r k :=
    funext fun a => Fin.ext (by match a with | ⟨0, _⟩ => rfl | ⟨1, _⟩ => rfl)
  have er : idx_main_v11 (ridx_main_v12 (idx_main_v29 (ix1 r) c) k) = ix2 c k :=
    funext fun a => Fin.ext (by match a with | ⟨0, _⟩ => rfl | ⟨1, _⟩ => rfl)
  rw [el, er]

/-- The comparison of the two iotas, read as a float, is the indicator of the diagonal. -/
private theorem mask_eq (r c : Fin 8192) :
    FloatOps.uitofp (F := Ideal) .f32 (IntOp.cmpi .eq (IntOp.addi (BitVec.ofNat 32 r.val) 0#32) (BitVec.ofNat 32 c.val))
      = if r = c then (1 : EReal) else 0 := by
  show (((IntOp.cmpi .eq (IntOp.addi (BitVec.ofNat 32 r.val) 0#32) (BitVec.ofNat 32 c.val)).toNat : ℝ) : EReal) = _
  unfold IntOp.cmpi IntOp.addi
  rw [BitVec.add_zero]
  by_cases h : r = c
  · subst h
    simp
  · have hne : BitVec.ofNat 32 r.val ≠ BitVec.ofNat 32 c.val := by
      intro e
      have e' := congrArg BitVec.toNat e
      rw [BitVec.toNat_ofNat, BitVec.toNat_ofNat, Nat.mod_eq_of_lt (by have := r.isLt; omega),
        Nat.mod_eq_of_lt (by have := c.isLt; omega)] at e'
      exact h (Fin.ext e')
    rw [if_neg h]
    simp [hne]

/-- The reference's row sums are the denominators of its concatenated normalised rows. -/
theorem ref_denom (x0 x1 : (⟨S4096x512, .f32⟩ : BufTy).Contents (Elt Ideal)) (r : Fin 8192) :
    val_main_v29 (F := Ideal) x0 x1 (ix1 r) = Cert.Spec.denom (val_main_v10 (F := Ideal) x0 x1) r := by
  rw [val_main_v29_apply]
  unfold Cert.Spec.denom
  rw [val_main_cst_4_apply, Ideal.ofBits_def, Ideal.ofBits_zero_f32, zero_add]
  refine Finset.sum_congr rfl fun c _ => ?_
  rw [val_main_v28_apply, val_main_v23_apply, val_main_v22_apply, val_main_cst_2_apply, val_main_v21_apply,
    val_main_v20_apply, val_main_v19_apply, val_main_v16_apply, val_main_v18_apply, val_main_c_apply,
    val_main_v17_apply, val_main_v27_apply, val_main_v26_apply, val_main_v24_apply, val_main_v25_apply,
    val_main_cst_3_apply, val_main_v12_apply]
  simp only [val_main_v11_apply]
  generalize val_main_v10 (F := Ideal) x0 x1 = y
  rw [dot_eq_sim]
  have hm : FloatOps.uitofp (F := Ideal) .f32
      (IntOp.cmpi .eq (IntOp.addi (BitVec.ofNat 32 (ix1 r 0).val) 0#32) (BitVec.ofNat 32 c.val))
      = if r = c then (1 : EReal) else 0 := mask_eq r c
  rw [hm]
  simp only [Ideal.mulf_def, Ideal.subf_def, Ideal.ofBits_def, Ideal.hostUnary_exp_def, Ideal.hostDivf_def,
    Ideal.hostAbsf_def]
  rw [Ideal.absf_def, ofBits_one, ofBits_half, Ideal.div_coe (by norm_num)]
  unfold Cert.Spec.term
  rw [show Cert.Spec.two = ((2 : ℝ) : EReal) from ofBits_two, show ((1 : ℝ) / (1 / 2)) = 2 by norm_num]
  by_cases h : r = c
  · have h11 : (1 : EReal) - 1 = 0 := by rw [← EReal.coe_one, ← EReal.coe_sub, sub_self, EReal.coe_zero]
    rw [if_pos h, if_pos h, h11, zero_mul]
  · rw [if_neg h, if_neg h, sub_zero, one_mul]

end Cert.RefSide

end
-- ==== Proof.KernelPayload.lean ====
import proofs.«155286_j21260088115612_1_alg».proof.Proof.Gen.KernelIdeal.Skeleton
import proofs.«155286_j21260088115612_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx Idealize.SL.Sem
open scoped BigOperators

/-- The loop starts from the zero column. -/
theorem pay1_apply (y : S1024x1.Idx) : (k0_pay1 (F := Ideal)) y = 0 := by
  unfold k0_pay1
  exact Ideal.ofBits_zero_f32

/-! ## The layout steps at an index -/

/-- A vector of 1024 entries cast to a column reads its q-th entry at (q, 0). -/
theorem shapeCast_col {α : Type} (x : S1024.Idx → α) (h : S1024.ShapeCasts S1024x1) (q : Fin 1024) (u : Fin 1) :
    shapeCast S1024x1 x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- The sum along axis 1 of a 1024 by 1024 array, read at row q. -/
theorem rowSum_apply (src : FVec Ideal S1024x1024 .f32) (h : S1024x1024.Reduces [1] S1024) (hφ : FKind.Formats .f32)
    (hacc : (0x00000000#32 : BitVec 32) = 0x00000000#32) (q : Fin 1024) :
    multiReduction .add [1] S1024 src 0x00000000#32 h hφ hacc (ix1 q) = ∑ j : Fin 1024, src (ix2 q j) := by
  refine (Ideal.multiReduction_add_single src 0x00000000#32 h hφ hacc (ix1 q)).trans ?_
  show ∑ j : Fin 1024, src (h.lift (ix1 q) j) = _
  refine Finset.sum_congr rfl fun j _ => congrArg src (funext fun c => Fin.ext ?_)
  match c with
  | ⟨0, _⟩ => rfl
  | ⟨1, _⟩ => rfl

/-! ## The matrix product at an index -/

theorem lhs_dot_0 (i : S1024x1024.Idx) (c : dot_S1024x512_S512x1024_S1024x1024_1_0_0_1_n_n.contr.Idx) :
    (dot_S1024x512_S512x1024_S1024x1024_1_0_0_1_n_n.lhsIdx i c 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhs_dot_1 (i : S1024x1024.Idx) (c : dot_S1024x512_S512x1024_S1024x1024_1_0_0_1_n_n.contr.Idx) :
    (dot_S1024x512_S512x1024_S1024x1024_1_0_0_1_n_n.lhsIdx i c 1).val = (c ⟨0, by decide⟩).val :=
  dot_S1024x512_S512x1024_S1024x1024_1_0_0_1_n_n.lhsIdx_val_of_single rfl i c
theorem rhs_dot_0 (i : S1024x1024.Idx) (c : dot_S1024x512_S512x1024_S1024x1024_1_0_0_1_n_n.contr.Idx) :
    (dot_S1024x512_S512x1024_S1024x1024_1_0_0_1_n_n.rhsIdx i c 0).val = (c ⟨0, by decide⟩).val :=
  dot_S1024x512_S512x1024_S1024x1024_1_0_0_1_n_n.rhsIdx_val_of_single rfl i c
theorem rhs_dot_1 (i : S1024x1024.Idx) (c : dot_S1024x512_S512x1024_S1024x1024_1_0_0_1_n_n.contr.Idx) :
    (dot_S1024x512_S512x1024_S1024x1024_1_0_0_1_n_n.rhsIdx i c 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The product into the zero accumulator, at (q, j): the sum over the 512 contracted positions. -/
theorem matmul_read (a : FVec Ideal S1024x512 .bf16) (b : FVec Ideal S512x1024 .bf16) (q j : Fin 1024) :
    matmul dot_S1024x512_S512x1024_S1024x1024_1_0_0_1_n_n none a b (constant (F := Ideal) S1024x1024 .f32 0x00000000#32) (ix2 q j)
      = ∑ d : Fin 512, a (ix2 q d) * b (ix2 d j) := by
  show FloatOps.matmul dot_S1024x512_S512x1024_S1024x1024_1_0_0_1_n_n none a b (constant (F := Ideal) S1024x1024 .f32 0x00000000#32) (ix2 q j) = _
  rw [Ideal.matmul_constant_zero_apply, ← Equiv.sum_comp (ValueIdx.contrEquiv1 dot_S1024x512_S512x1024_S1024x1024_1_0_0_1_n_n 512 rfl rfl).symm]
  refine Finset.sum_congr rfl fun d _ => ?_
  have hd := ValueIdx.contrEquiv1_symm_val dot_S1024x512_S512x1024_S1024x1024_1_0_0_1_n_n 512 rfl rfl d
  have el : dot_S1024x512_S512x1024_S1024x1024_1_0_0_1_n_n.lhsIdx (ix2 q j) ((ValueIdx.contrEquiv1 dot_S1024x512_S512x1024_S1024x1024_1_0_0_1_n_n 512 rfl rfl).symm d) = ix2 q d := funext fun c => Fin.ext (by
    match c with
    | ⟨0, _⟩ => exact lhs_dot_0 _ _
    | ⟨1, _⟩ => exact (lhs_dot_1 _ _).trans hd)
  have er : dot_S1024x512_S512x1024_S1024x1024_1_0_0_1_n_n.rhsIdx (ix2 q j) ((ValueIdx.contrEquiv1 dot_S1024x512_S512x1024_S1024x1024_1_0_0_1_n_n 512 rfl rfl).symm d) = ix2 d j := funext fun c => Fin.ext (by
    match c with
    | ⟨0, _⟩ => exact (rhs_dot_0 _ _).trans hd
    | ⟨1, _⟩ => exact rhs_dot_1 _ _)
  rw [el, er]

/-! ## The index mask -/

/-- A block number below 8 times 1024 plus a position below 1024, computed on 32-bit words, is that natural number. -/
theorem word_row (a : Nat) (ha : a < 8) (q : Fin 1024) :
    (IntOp.addi (IntOp.muli (BitVec.ofNat 32 a) 1024#32) (BitVec.ofNat 32 q.val)).toNat = a * 1024 + q.val := by
  have hq := q.isLt
  simp only [IntOp.addi, IntOp.muli, BitVec.toNat_add, BitVec.toNat_mul, BitVec.toNat_ofNat]
  omega

/-- The induction variable of a loop from 0 by 1 is the trip number. -/
theorem iv_word (b : Nat) : Scf.iv 0#32 1#32 b = BitVec.ofNat 32 b := by
  unfold Scf.iv
  rw [BitVec.mul_one, BitVec.zero_add]

/-- A compare for difference of two words is 1 exactly when the words differ. -/
theorem cmpi_ne_word (x y : BitVec 32) : IntOp.cmpi .ne x y = if x = y then 0#1 else 1#1 := by
  by_cases h : x = y
  · rw [if_pos h, h]
    show BitVec.ofBool (y != y) = 0#1
    rw [bne_self_eq_false]; rfl
  · rw [if_neg h]
    show BitVec.ofBool (x != y) = 1#1
    rw [bne_iff_ne.2 h]; rfl

/-- The compare of the two global positions is 1 exactly when they differ as numbers. -/
theorem mask_word (a b : Nat) (ha : a < 8) (hb : b < 8) (q j : Fin 1024) :
    IntOp.cmpi .ne (IntOp.addi (IntOp.muli (BitVec.ofNat 32 a) 1024#32) (BitVec.ofNat 32 q.val))
        (IntOp.addi (IntOp.muli (Scf.iv 0#32 1#32 b) 1024#32) (BitVec.ofNat 32 j.val))
      = if a * 1024 + q.val = b * 1024 + j.val then 0#1 else 1#1 := by
  rw [iv_word, cmpi_ne_word]
  have h1 := word_row a ha q
  have h2 := word_row b hb j
  by_cases h : a * 1024 + q.val = b * 1024 + j.val
  · rw [if_pos h, if_pos (BitVec.eq_of_toNat_eq (by rw [h1, h2, h]))]
  · rw [if_neg h, if_neg (fun e => h (by rw [← h1, ← h2, e]))]

/-- One trip's yield, row by row: the carried entry plus the trip's 1024 masked exponentials of the row's inner
    products with the trip's block of rows. -/
theorem pay2_apply (i : grid0.Coords) (v0 : FVec Ideal S1024x512 .bf16) (k : Fin k0_t1_loop.trips) (acc : FVec Ideal S1024x1 .f32) (v13 : FVec Ideal S1024x512 .bf16) (q : Fin 1024) :
    k0_pay2 (F := Ideal) i v0 k acc v13 (ix2 q 0)
      = acc (ix2 q 0) + ∑ j : Fin 1024,
          (if (i 0).val * 1024 + q.val = k.val * 1024 + j.val then (0 : EReal)
           else Ideal.exp (max (∑ d : Fin 512, v0 (ix2 q d) * v13 (ix2 j d)) (-(∑ d : Fin 512, v0 (ix2 q d) * v13 (ix2 j d))) * Cert.Spec.two)) := by
  have hi : (i 0).val < 8 := (i 0).isLt
  have hk : k.val < 8 := Nat.lt_of_lt_of_le k.isLt k0_t1_abs.2.1
  unfold k0_pay2
  refine congrArg (acc (ix2 q 0) + ·) ?_
  refine (shapeCast_col _ _ q 0).trans ?_
  refine (rowSum_apply _ _ _ _ q).trans ?_
  refine Finset.sum_congr rfl fun j _ => ?_
  -- the mask at (q, j)
  have hm : cmpi CmpIPredicate.ne
        (addi (broadcast S1024x1024 (Scalar.muli (BitVec.ofNat 32 (i 0).val) 1024#32))
          (iota Kind.tc S1024x1024 32 [0] iota_S1024x1024_d0_w32))
        (addi (broadcast S1024x1024 (Scalar.muli (Scf.iv 0#32 1#32 k.val) 1024#32))
          (iota Kind.tc S1024x1024 32 [1] iota_S1024x1024_d1_w32)) (ix2 q j)
      = if (i 0).val * 1024 + q.val = k.val * 1024 + j.val then 0#1 else 1#1 := by
    show IntOp.cmpi .ne
        (IntOp.addi (IntOp.muli (BitVec.ofNat 32 (i 0).val) 1024#32) (iota Kind.tc S1024x1024 32 [0] iota_S1024x1024_d0_w32 (ix2 q j)))
        (IntOp.addi (IntOp.muli (Scf.iv 0#32 1#32 k.val) 1024#32) (iota Kind.tc S1024x1024 32 [1] iota_S1024x1024_d1_w32 (ix2 q j))) = _
    rw [iota_single_apply, iota_single_apply]
    exact mask_word (i 0).val k.val hi hk q j
  -- the product at (q, j)
  have hp : matmul dot_S1024x512_S512x1024_S1024x1024_1_0_0_1_n_n none
        (shapeCast S1024x512 v0 shapeCasts_S1024x512_S1024x512)
        (transpose S512x1024 [1, 0] (shapeCast S1024x512 v13 shapeCasts_S1024x512_S1024x512) transposes_S1024x512_p1_0_S512x1024)
        (constant (F := Ideal) S1024x1024 FTy.f32 0x00000000#32) (ix2 q j)
      = ∑ d : Fin 512, v0 (ix2 q d) * v13 (ix2 j d) := by
    rw [shapeCast_self, shapeCast_self]
    refine (matmul_read _ _ q j).trans ?_
    refine Finset.sum_congr rfl fun d _ => ?_
    exact congrArg (v0 (ix2 q d) * ·) (transpose_ix2_apply v13 _ d j)
  show Scalar.select
      (cmpi CmpIPredicate.ne
        (addi (broadcast S1024x1024 (Scalar.muli (BitVec.ofNat 32 (i 0).val) 1024#32))
          (iota Kind.tc S1024x1024 32 [0] iota_S1024x1024_d0_w32))
        (addi (broadcast S1024x1024 (Scalar.muli (Scf.iv 0#32 1#32 k.val) 1024#32))
          (iota Kind.tc S1024x1024 32 [1] iota_S1024x1024_d1_w32)) (ix2 q j))
      (Ideal.exp (max
          (matmul dot_S1024x512_S512x1024_S1024x1024_1_0_0_1_n_n none
            (shapeCast S1024x512 v0 shapeCasts_S1024x512_S1024x512)
            (transpose S512x1024 [1, 0] (shapeCast S1024x512 v13 shapeCasts_S1024x512_S1024x512) transposes_S1024x512_p1_0_S512x1024)
            (constant (F := Ideal) S1024x1024 FTy.f32 0x00000000#32) (ix2 q j))
          (-(matmul dot_S1024x512_S512x1024_S1024x1024_1_0_0_1_n_n none
            (shapeCast S1024x512 v0 shapeCasts_S1024x512_S1024x512)
            (transpose S512x1024 [1, 0] (shapeCast S1024x512 v13 shapeCasts_S1024x512_S1024x512) transposes_S1024x512_p1_0_S512x1024)
            (constant (F := Ideal) S1024x1024 FTy.f32 0x00000000#32) (ix2 q j))) * Cert.Spec.two))
      (Ideal.ofBits .f32 0x00000000#32) = _
  rw [hm, hp]
  by_cases h : (i 0).val * 1024 + q.val = k.val * 1024 + j.val
  · rw [if_pos h, if_pos h, select_zero]
    exact Ideal.ofBits_zero_f32
  · rw [if_neg h, if_neg h, select_one]

end Cert.KernelIdeal.Pay

end
-- ==== Proof.KernelBlocks.lean ====
import proofs.«155286_j21260088115612_1_alg».proof.Proof.FrameKI
import proofs.«155286_j21260088115612_1_alg».proof.Proof.Spec
import Idealize.ShloMosaic.Lib.ValueIdx
import Idealize.ShloMosaic.Lib.Pipeline.Value

set_option maxRecDepth 16384

noncomputable section

/-! # The region's blocks against the whole arrays

Point t of the grid reads rows t * 1024 .. of the normalised rows through the first window and all of them through
the second, and writes rows t * 1024 .. of the row sums. -/

namespace Cert.KernelIdeal.Blk

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The grid has eight points. -/
theorem tlt (t : Fin cfg0.N) : t.val < 8 := Nat.lt_of_lt_of_eq t.isLt (show cfg0.N = 8 from N_0)

/-- Point t as a block number. -/
abbrev tOf (t : Fin cfg0.N) : Fin 8 := ⟨t.val, tlt t⟩

/-- The printed index maps over the grid: the row window and the output window move with the point, the resident
    window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The row window's block at point t is rows t * 1024 .. of the normalised rows. -/
theorem iblk0_apply (c : Dev nD) (t : Fin cfg0.N) (q : Fin 1024) (d : Fin 512) :
    Fr.iblk (F := Ideal) m c 0 t (ix2 q d) = Fr.V (F := Ideal) m c main_v20 (ix2 (Cert.Spec.rowOf (tOf t) q) d) := by
  obtain ⟨e0, e1, -, -, -, -⟩ := idx_facts t
  show Fr.V (F := Ideal) m c main_v20 (((cfg0.win 0).blk t).view.emb (ix2 q d)) = _
  refine congrArg (Fr.V (F := Ideal) m c main_v20) (funext fun a => Fin.ext ?_)
  match a with
  | ⟨0, _⟩ => show win0_0.index t (0 : Fin 2) * 1024 + 1 * q.val = t.val * 1024 + q.val; omega
  | ⟨1, _⟩ => show win0_0.index t (1 : Fin 2) * 512 + 1 * d.val = d.val; omega

/-- The resident window's block is the whole array of normalised rows. -/
theorem iblk1_apply (c : Dev nD) (t : Fin cfg0.N) (r : Fin 8192) (d : Fin 512) :
    Fr.iblk (F := Ideal) m c 1 t (ix2 r d) = Fr.V (F := Ideal) m c main_v20 (ix2 r d) := by
  obtain ⟨-, -, e2, e3, -, -⟩ := idx_facts t
  show Fr.V (F := Ideal) m c main_v20 (((cfg0.win 1).blk t).view.emb (ix2 r d)) = _
  refine congrArg (Fr.V (F := Ideal) m c main_v20) (funext fun a => Fin.ext ?_)
  match a with
  | ⟨0, _⟩ => show win0_1.index t (0 : Fin 2) * 8192 + 1 * r.val = r.val; omega
  | ⟨1, _⟩ => show win0_1.index t (1 : Fin 2) * 512 + 1 * d.val = d.val; omega

/-- An index of the row sums' array is in point t's block iff its row is among rows t * 1024 .. -/
theorem mem_blk2 (t : Fin cfg0.N) (i : S8192x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v21).slice (win0_2.rect t)).set ↔ _
  rw [View.set_slice_whole, Rect.mem_set_unit]
  exact Iff.rfl

/-- From blocks to the array: if what each point leaves in the output block is G at the block's rows, the row sums'
    array ends at G, row by row. -/
theorem final_of_blocks (c : Dev nD) (G : Fin 8192 → EReal)
    (h : ∀ (t : Fin cfg0.N) (q : Fin 1024), Fr.out0 (F := Ideal) m c t (ix2 q 0) = G (Cert.Spec.rowOf (tOf t) q))
    (idx : S8192x1.Idx) :
    (Fr.dats (F := Ideal) m 0 c).arrAt 2 cfg0.N idx = G ⟨(idx 0).val, (idx 0).isLt⟩ := by
  have hfl : ∀ t, (cfg0.win 2).flush t = true → (Fr.dats (F := Ideal) m 0 c).flushed 2 t
      = ((cfg0.win 2).blk t).view.read (Elt Ideal) (fun i : S8192x1.Idx => G ⟨(i 0).val, (i 0).isLt⟩) := fun t _ => by
    show (cfg0.win 2).cut (grid0.coords t) ((Fr.dats (F := Ideal) m 0 c).after 2 t) = _
    rw [Fr.after0_2]
    obtain ⟨-, -, -, -, e4, e5⟩ := idx_facts t
    funext y
    obtain ⟨q, rfl⟩ : ∃ q : Fin 1024, y = ix2 q (0 : Fin 1) :=
      ⟨⟨(y 0).val, (y 0).isLt⟩, funext fun a => by
        match a with
        | ⟨0, _⟩ => rfl
        | ⟨1, _⟩ => exact Fin.ext (by have h1 : (y 1).val < 1 := (y 1).isLt; show (y 1).val = 0; omega)⟩
    show Fr.out0 (F := Ideal) m c t (ix2 q 0) = G ⟨((((cfg0.win 2).blk t).view.emb (ix2 q (0 : Fin 1))) 0).val, _⟩
    rw [h t q]
    refine congrArg G (Fin.ext ?_)
    show t.val * 1024 + q.val = win0_2.index t (0 : Fin 2) * 1024 + 1 * q.val
    omega
  have hcover : ∀ i : S8192x1.Idx, ∃ t : Fin cfg0.N, (cfg0.win 2).flush t = true ∧ i ∈ ((cfg0.win 2).blk t).view.set := fun i => by
    have hi0 : (i 0).val < 8192 := (i 0).isLt
    have hi1 : (i 1).val < 1 := (i 1).isLt
    have hN : cfg0.N = 8 := N_0
    refine ⟨⟨(i 0).val / 1024, by rw [hN]; omega⟩, flush0_2 _, ?_⟩
    rw [mem_blk2]
    obtain ⟨-, -, -, -, e4, e5⟩ := idx_facts ⟨(i 0).val / 1024, by rw [hN]; omega⟩
    intro a
    match a with
    | ⟨0, _⟩ => show win0_2.index _ (0 : Fin 2) * 1024 ≤ (i 0).val ∧ (i 0).val < win0_2.index _ (0 : Fin 2) * 1024 + 1024; simp only [] at e4; omega
    | ⟨1, _⟩ => show win0_2.index _ (1 : Fin 2) * 1 ≤ (i 1).val ∧ (i 1).val < win0_2.index _ (1 : Fin 2) * 1 + 1; omega
  exact congrFun ((Fr.dats (F := Ideal) m 0 c).arrAt_eq_of_cover 2 (fun i : S8192x1.Idx => G ⟨(i 0).val, (i 0).isLt⟩) hfl hcover) idx

end Cert.KernelIdeal.Blk

end
-- ==== Proof.KernelValue.lean ====
import proofs.«155286_j21260088115612_1_alg».proof.Proof.FrameKI
import proofs.«155286_j21260088115612_1_alg».proof.Proof.KernelPayload
import proofs.«155286_j21260088115612_1_alg».proof.Proof.KernelBlocks
import proofs.«155286_j21260088115612_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Val

open Cert.KernelIdeal Cert.KernelIdeal.Gen Idealize.ShloMosaic Idealize.ShloMosaic.TcCoe Idealize.ShloMosaic.ValueIdx Idealize.SL.Sem
open scoped BigOperators

variable (m : (ℓ : Loc nD τ sig) → Buf (Elt Ideal) ℓ)

/-! ## One trip of the loop

The trip loads one block of 1024 rows of the resident array and yields the payload of that block. -/

section Trip
variable {F : FTy → Type} [FloatOps F]

/-- What one trip yields: the payload of the carried column and of the block the trip loads from the resident array at
    the trip's row offset. -/
theorem trip_eq (c : Dev nD) (i : grid0.Coords) (arg1 : Memref sig .tc .vmem S1024x512 .bf16) (harg1 : arg1.IsWhole) (arg2 : Memref sig .tc .vmem S8192x512 .bf16) (harg2 : arg2.IsWhole) (arg3 : Memref sig .tc .vmem S1024x1 .f32) (harg3 : arg3.IsWhole)
    (v0 : Vec F S1024x512 .bf16) (X : BufTy.Contents (Elt F) arg2.view.ty) (k : Fin k0_t1_loop.trips) (acc : FVec F S1024x1 .f32) :
    tripR_k0_t1 (F := F) Variants.none c none i arg1 harg1 arg2 harg2 arg3 harg3 v0 X k acc
      = k0_pay2 i v0 k acc (View.readAt (Elt F) arg2.view (Rect.unit (s := S8192x512) (k0_off1 k) S1024x512.size (k0_off1_inb k)).toLoadRect X) := by
  unfold tripR_k0_t1 trip_k0_t1; rfl

end Trip

/-- The loop runs eight trips. -/
theorem trips_eq : k0_t1_loop.trips = 8 := by decide

theorem hz2 : (![0, 0] : Fin 2 → Nat) = fun _ => 0 := funext fun a => by fin_cases a <;> rfl

/-- The load of the whole row block reads the block. -/
theorem load_rows (arg1 : Memref sig .tc .vmem S1024x512 .bf16) (harg1 : arg1.IsWhole) (x0 : FVec Ideal S1024x512 .bf16) :
    View.readAt (Elt Ideal) arg1.view (Rect.unit (s := S1024x512) ![0, 0] S1024x512.size inb_S1024x512_S1024x512_0_0).toLoadRect (harg1.unread x0) = x0 := by
  rw [View.readAt_eq_ld, harg1.read_unread, View.ld_unit_zero (S := S1024x512) hz2]

/-- Trip k's load reads rows k * 1024 .. of the resident array. -/
theorem load_trip (arg2 : Memref sig .tc .vmem S8192x512 .bf16) (harg2 : arg2.IsWhole) (x1 : FVec Ideal S8192x512 .bf16)
    (k : Fin k0_t1_loop.trips) (k' : Fin 8) (hk : k'.val = k.val) (j : Fin 1024) (d : Fin 512) :
    View.readAt (Elt Ideal) arg2.view (Rect.unit (s := S8192x512) (k0_off1 k) S1024x512.size (k0_off1_inb k)).toLoadRect (harg2.unread x1) (ix2 j d)
      = x1 (ix2 (Cert.Spec.rowOf k' j) d) := by
  rw [View.readAt_eq_ld, harg2.read_unread]
  show x1 ((Rect.unit (s := S8192x512) (k0_off1 k) S1024x512.size (k0_off1_inb k)).emb (ix2 j d)) = _
  refine congrArg x1 (funext fun a => Fin.ext ?_)
  rw [Rect.emb_apply]
  have e := k0_off1_eq k
  match a with
  | ⟨0, _⟩ =>
    show (k0_off1 k) 0 + 1 * j.val = k'.val * 1024 + j.val
    rw [e, hk]; show 1024 * k.val + 1 * j.val = _; omega
  | ⟨1, _⟩ =>
    show (k0_off1 k) 1 + 1 * d.val = d.val
    rw [e]; show 0 + 1 * d.val = _; omega

/-! ## The eight trips -/

/-- Trip k's contribution to row q of the block: over the 1024 rows of block k of the resident array, nothing where
    the row is row q of the point's own block, the exponential of twice the absolute inner product elsewhere. -/
def tripSum (i0 : ℕ) (x0 : FVec Ideal S1024x512 .bf16) (x1 : FVec Ideal S8192x512 .bf16) (q : Fin 1024) (k : Fin 8) : EReal :=
  ∑ j : Fin 1024,
    (if i0 * 1024 + q.val = k.val * 1024 + j.val then (0 : EReal)
     else Ideal.exp (max (∑ d : Fin 512, x0 (ix2 q d) * x1 (ix2 (Cert.Spec.rowOf k j) d))
        (-(∑ d : Fin 512, x0 (ix2 q d) * x1 (ix2 (Cert.Spec.rowOf k j) d))) * Cert.Spec.two))

/-- The carried column before trip n, at row q: the contributions of the trips below n. -/
theorem st_apply (c : Dev nD) (i : grid0.Coords) (arg1 : Memref sig .tc .vmem S1024x512 .bf16) (harg1 : arg1.IsWhole) (arg2 : Memref sig .tc .vmem S8192x512 .bf16) (harg2 : arg2.IsWhole) (arg3 : Memref sig .tc .vmem S1024x1 .f32) (harg3 : arg3.IsWhole)
    (x0 : FVec Ideal S1024x512 .bf16) (x1 : FVec Ideal S8192x512 .bf16) (q : Fin 1024) :
    ∀ n : ℕ, n ≤ 8 →
    st_k0_t1 (F := Ideal) Variants.none c none i arg1 harg1 arg2 harg2 arg3 harg3
        (View.readAt (Elt Ideal) arg1.view (Rect.unit (s := S1024x512) ![0, 0] S1024x512.size inb_S1024x512_S1024x512_0_0).toLoadRect (harg1.unread x0))
        (harg2.unread x1) (k0_pay1 (F := Ideal)) n (ix2 q 0)
      = ∑ k ∈ Finset.range n, (if h : k < 8 then tripSum (i 0).val x0 x1 q ⟨k, h⟩ else 0)
  | 0, _ => by
    rw [st_k0_t1_zero, Finset.sum_range_zero]
    exact Pay.pay1_apply (ix2 q 0)
  | n + 1, hn => by
    have h8 : n < 8 := hn
    have hk : n < k0_t1_loop.trips := by rw [trips_eq]; exact h8
    have ih := st_apply c i arg1 harg1 arg2 harg2 arg3 harg3 x0 x1 q n (Nat.le_of_succ_le hn)
    rw [Finset.sum_range_succ, dif_pos h8, ← ih]
    refine (congrFun (st_k0_t1_succ (F := Ideal) Variants.none c none i arg1 harg1 arg2 harg2 arg3 harg3 _ (harg2.unread x1) (k0_pay1 (F := Ideal)) ⟨n, hk⟩) (ix2 q 0)).trans ?_
    refine (congrFun (trip_eq (F := Ideal) c i arg1 harg1 arg2 harg2 arg3 harg3 _ (harg2.unread x1) ⟨n, hk⟩ _) (ix2 q 0)).trans ?_
    refine (Pay.pay2_apply i _ ⟨n, hk⟩ _ _ q).trans ?_
    refine congrArg _ ?_
    unfold tripSum
    refine Finset.sum_congr rfl fun j _ => ?_
    rw [load_rows arg1 harg1 x0]
    simp only [load_trip arg2 harg2 x1 ⟨n, hk⟩ ⟨n, h8⟩ rfl j]

/-- What the body leaves in the output block, at row q: the contributions of all eight trips. -/
theorem outv_apply (c : Dev nD) (i : grid0.Coords) (arg1 : Memref sig .tc .vmem S1024x512 .bf16) (harg1 : arg1.IsWhole) (arg2 : Memref sig .tc .vmem S8192x512 .bf16) (harg2 : arg2.IsWhole) (arg3 : Memref sig .tc .vmem S1024x1 .f32) (harg3 : arg3.IsWhole)
    (x0 : FVec Ideal S1024x512 .bf16) (x1 : FVec Ideal S8192x512 .bf16) (q : Fin 1024) :
    Fr.outv (F := Ideal) c i arg1 harg1 arg2 harg2 arg3 harg3 x0 x1 (ix2 q 0) = ∑ k : Fin 8, tripSum (i 0).val x0 x1 q k := by
  unfold Fr.outv
  rw [View.canon_unit_zero hz2]
  have h8 : Scf.trips k0_t1_loop.lb k0_t1_loop.ub k0_t1_loop.st = 8 := trips_eq
  rw [h8]
  refine (st_apply c i arg1 harg1 arg2 harg2 arg3 harg3 x0 x1 q 8 (Nat.le_refl 8)).trans ?_
  rw [Finset.sum_range]
  exact Finset.sum_congr rfl fun k _ => dif_pos k.isLt

/-- Two rows of the 8192 coincide exactly when their positions do. -/
theorem rowOf_eq_iff (t k : Fin 8) (q j : Fin 1024) :
    Cert.Spec.rowOf t q = Cert.Spec.rowOf k j ↔ t.val * 1024 + q.val = k.val * 1024 + j.val := by
  unfold Cert.Spec.rowOf
  exact Fin.mk.injEq _ _ _ _ ▸ Iff.rfl

/-- With the row block being rows t * 1024 .. of z and the resident block all of z, the eight contributions add up to the
    denominator of row t * 1024 + q of z: block k's contribution is the part of the denominator's sum over rows k * 1024 ..,
    the index test being the test for the diagonal. -/
theorem sum_tripSum (z : FVec Ideal S8192x512 .bf16) (t : Fin 8) (x0 : FVec Ideal S1024x512 .bf16) (x1 : FVec Ideal S8192x512 .bf16)
    (h0 : ∀ (q : Fin 1024) (d : Fin 512), x0 (ix2 q d) = z (ix2 (Cert.Spec.rowOf t q) d))
    (h1 : ∀ (r : Fin 8192) (d : Fin 512), x1 (ix2 r d) = z (ix2 r d)) (q : Fin 1024) :
    ∑ k : Fin 8, tripSum t.val x0 x1 q k = Cert.Spec.denom z (Cert.Spec.rowOf t q) := by
  unfold Cert.Spec.denom
  rw [Cert.Spec.sum_blocks]
  refine Finset.sum_congr rfl fun k _ => ?_
  unfold tripSum
  refine Finset.sum_congr rfl fun j _ => ?_
  unfold Cert.Spec.term Cert.Spec.sim
  simp only [h0, h1]
  by_cases h : t.val * 1024 + q.val = k.val * 1024 + j.val
  · rw [if_pos h, if_pos ((rowOf_eq_iff t k q j).2 h)]
  · rw [if_neg h, if_neg (fun e => h ((rowOf_eq_iff t k q j).1 e))]

/-! ## The output block at a grid point, and the array -/

/-- The one grid coordinate of point t is t. -/
theorem coords_val : ∀ t : Fin cfg0.N, ((grid0.coords t) 0).val = t.val :=
  (by decide +kernel : ∀ t : Fin grid0.N, ((grid0.coords t) 0).val = t.val)

/-- What the body leaves in the output block at point t, at row q: the denominator of row t * 1024 + q of the normalised
    rows. The row window's block is rows t * 1024 .. of the array and the resident window's block is the whole array. -/
theorem out0_apply (c : Dev nD) (t : Fin cfg0.N) (q : Fin 1024) :
    Fr.out0 (F := Ideal) m c t (ix2 q 0)
      = Cert.Spec.denom (Fr.V (F := Ideal) m c main_v20) (Cert.Spec.rowOf (Blk.tOf t) q) := by
  unfold Fr.out0
  refine (outv_apply c (grid0.coords t) (Fr.ms0_0 t) (Fr.hs0_0 t) (Fr.ms0_1 t) (Fr.hs0_1 t) (Fr.ms0_2 t) (Fr.hs0_2 t) (Fr.iblk (F := Ideal) m c 0 t) (Fr.iblk (F := Ideal) m c 1 t) q).trans ?_
  rw [coords_val t]
  exact sum_tripSum (Fr.V (F := Ideal) m c main_v20) (Blk.tOf t) (Fr.iblk (F := Ideal) m c 0 t) (Fr.iblk (F := Ideal) m c 1 t)
    (fun q d => Blk.iblk0_apply m c t q d) (fun r d => Blk.iblk1_apply m c t r d) q

/-- After the region the row sums' array holds, at row r, the denominator of row r of the normalised rows as the
    region found them. -/
theorem sums_final (c : Dev nD) (idx : S8192x1.Idx) :
    (Fr.dats (F := Ideal) m 0 c).arrAt 2 cfg0.N idx
      = Cert.Spec.denom (Fr.V (F := Ideal) m c main_v20) ⟨(idx 0).val, (idx 0).isLt⟩ :=
  Blk.final_of_blocks m c (Cert.Spec.denom (Fr.V (F := Ideal) m c main_v20)) (fun t q => out0_apply m c t q) idx

end Cert.KernelIdeal.Val

end
-- ==== Proof.HostSide.lean ====
import proofs.«155286_j21260088115612_1_alg».proof.Proof.FrameKI
import proofs.«155286_j21260088115612_1_alg».proof.Proof.Gen.ReferenceIdeal.Read
import proofs.«155286_j21260088115612_1_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

noncomputable section

namespace Cert.HostSide

open Idealize.ShloMosaic Idealize.ShloMosaic.TcCoe Idealize.ShloMosaic.ValueIdx Idealize.SL.Sem
open scoped BigOperators

/-- The loss as a function of the positive-pair similarities p and the row denominators d: the mean over the 8192
    rows of log d - 2 p. -/
def tail (p d : (⟨Cert.KernelIdeal.S8192, .f32⟩ : BufTy).Contents (Elt Ideal)) :
    (⟨Cert.KernelIdeal.S_, .f32⟩ : BufTy).Contents (Elt Ideal) :=
  Host.divf (F := Ideal)
    (Host.reduceAdd (F := Ideal)
      (addf (F := Ideal)
        (Host.divf (F := Ideal) (Host.negf (F := Ideal) p)
          (broadcastInDim Cert.KernelIdeal.S8192 ![] Cert.KernelIdeal.Gen.bcast_S_S8192
            (constant (F := Ideal) Cert.KernelIdeal.S_ .f32 0x3F000000#32)))
        (Host.log (F := Ideal) d))
      (constant (F := Ideal) Cert.KernelIdeal.S_ .f32 0x00000000#32) Cert.KernelIdeal.Gen.reducesTo_S8192_S_d0 Cert.KernelIdeal.Gen.h_S_)
    (constant (F := Ideal) Cert.KernelIdeal.S_ .f32 0x46000000#32)

section Generic

variable {F : FTy → Type} [FloatOps F]

/-- The kernel program's normalised rows before the region, narrowed to bf16, are the reference's concatenated
    normalised rows narrowed the same way: the two normalisation chains are the same operations on the same
    arguments. -/
theorem rows_eq (m : (ℓ : Loc Cert.KernelIdeal.nD Cert.KernelIdeal.τ Cert.KernelIdeal.sig) → Buf (Elt F) ℓ) (c : Dev Cert.KernelIdeal.nD) :
    Cert.KernelIdeal.Fr.V0 (F := F) m c (Proc.devRef .tc Cert.KernelIdeal.main_v20)
      = truncf .bf16 (Cert.ReferenceIdeal.Read.val_main_v10 (F := F)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))) Cert.KernelIdeal.Gen.bitsLt_bf16_f32 := by
  dsimp only [Cert.KernelIdeal.Fr.V0]
  simp only [Cert.KernelIdeal.Gen.hostOps0, List.flatten_cons, List.flatten_nil, List.append_nil]
  after_results_simp
  unfold Cert.ReferenceIdeal.Read.val_main_v10 Cert.ReferenceIdeal.Read.val_main_v4 Cert.ReferenceIdeal.Read.val_main_v9
    Cert.ReferenceIdeal.Read.val_main_v3 Cert.ReferenceIdeal.Read.val_main_v8 Cert.ReferenceIdeal.Read.val_main_v2
    Cert.ReferenceIdeal.Read.val_main_v7 Cert.ReferenceIdeal.Read.val_main_v1 Cert.ReferenceIdeal.Read.val_main_v6
    Cert.ReferenceIdeal.Read.val_main_v0 Cert.ReferenceIdeal.Read.val_main_v5 Cert.ReferenceIdeal.Read.val_main_cst
    Cert.ReferenceIdeal.Read.val_main_cst_0 Cert.ReferenceIdeal.Read.val_main_call0_v2 Cert.ReferenceIdeal.Read.val_main_call1_v2
    Cert.ReferenceIdeal.Read.val_main_call0_v1 Cert.ReferenceIdeal.Read.val_main_call1_v1 Cert.ReferenceIdeal.Read.val_main_call0_v0
    Cert.ReferenceIdeal.Read.val_main_call1_v0 Cert.ReferenceIdeal.Read.val_main_call0_cst Cert.ReferenceIdeal.Read.val_main_call1_cst
  rfl

/-- The kernel program's positive-pair similarities, each row's twice over, are the reference's. -/
theorem pos_eq (m : (ℓ : Loc Cert.KernelIdeal.nD Cert.KernelIdeal.τ Cert.KernelIdeal.sig) → Buf (Elt F) ℓ) (c : Dev Cert.KernelIdeal.nD) :
    Cert.KernelIdeal.Fr.V0 (F := F) m c (Proc.devRef .tc Cert.KernelIdeal.main_v18)
      = Cert.ReferenceIdeal.Read.val_main_v15 (F := F)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  dsimp only [Cert.KernelIdeal.Fr.V0]
  simp only [Cert.KernelIdeal.Gen.hostOps0, List.flatten_cons, List.flatten_nil, List.append_nil]
  after_results_simp
  unfold Cert.ReferenceIdeal.Read.val_main_v15 Cert.ReferenceIdeal.Read.val_main_v14 Cert.ReferenceIdeal.Read.val_main_v13
    Cert.ReferenceIdeal.Read.val_main_cst_1
    Cert.ReferenceIdeal.Read.val_main_v4 Cert.ReferenceIdeal.Read.val_main_v9
    Cert.ReferenceIdeal.Read.val_main_v3 Cert.ReferenceIdeal.Read.val_main_v8 Cert.ReferenceIdeal.Read.val_main_v2
    Cert.ReferenceIdeal.Read.val_main_v7 Cert.ReferenceIdeal.Read.val_main_v1 Cert.ReferenceIdeal.Read.val_main_v6
    Cert.ReferenceIdeal.Read.val_main_v0 Cert.ReferenceIdeal.Read.val_main_v5 Cert.ReferenceIdeal.Read.val_main_cst
    Cert.ReferenceIdeal.Read.val_main_cst_0 Cert.ReferenceIdeal.Read.val_main_call0_v2 Cert.ReferenceIdeal.Read.val_main_call1_v2
    Cert.ReferenceIdeal.Read.val_main_call0_v1 Cert.ReferenceIdeal.Read.val_main_call1_v1 Cert.ReferenceIdeal.Read.val_main_call0_v0
    Cert.ReferenceIdeal.Read.val_main_call1_v0 Cert.ReferenceIdeal.Read.val_main_call0_cst Cert.ReferenceIdeal.Read.val_main_call1_cst
  rfl

end Generic

/-- The kernel program's loss is the reference's, given that the region's row sums (hK) and the reference's row
    sums (hR) are both the denominators of their normalised rows: the host operations around the region are the
    reference's own, operation for operation. -/
theorem kernel_loss_eq
    (m : (ℓ : Loc Cert.KernelIdeal.nD Cert.KernelIdeal.τ Cert.KernelIdeal.sig) → Buf (Elt Ideal) ℓ) (c : Dev Cert.KernelIdeal.nD)
    (x0 x1 : (⟨Cert.ReferenceIdeal.S4096x512, .f32⟩ : BufTy).Contents (Elt Ideal))
    (h0 : m ((c.tc : Thread Cert.KernelIdeal.nD Cert.KernelIdeal.τ).loc Cert.KernelIdeal.main_arg0) = x0)
    (h1 : m ((c.tc : Thread Cert.KernelIdeal.nD Cert.KernelIdeal.τ).loc Cert.KernelIdeal.main_arg1) = x1)
    (hK : ∀ idx : Cert.KernelIdeal.S8192x1.Idx, (Cert.KernelIdeal.Fr.dats (F := Ideal) m 0 c).arrAt 2 Cert.KernelIdeal.cfg0.N idx
        = Cert.Spec.denom (Cert.KernelIdeal.Fr.V (F := Ideal) m c Cert.KernelIdeal.main_v20) ⟨(idx 0).val, (idx 0).isLt⟩)
    (hR : ∀ r : Fin 8192, Cert.ReferenceIdeal.Read.val_main_v29 (F := Ideal) x0 x1 (ix1 r)
        = Cert.Spec.denom (Cert.ReferenceIdeal.Read.val_main_v10 (F := Ideal) x0 x1) r) :
    StableHlo.after (List.flatten [Cert.KernelIdeal.Gen.hostOps1]) (Cert.KernelIdeal.Fr.Wx (F := Ideal) m c) (Proc.devRef .tc Cert.KernelIdeal.main_v29)
      = Cert.ReferenceIdeal.Read.val_main_v36 (F := Ideal) x0 x1 := by
  subst h0 h1
  -- the kernel's normalised rows are the reference's, entry by entry (narrowing to bf16 keeps every entry)
  have hrows : (Cert.KernelIdeal.Fr.V (F := Ideal) m c Cert.KernelIdeal.main_v20 : (⟨2, ![8192, 512]⟩ : Shape).Idx → EReal)
      = Cert.ReferenceIdeal.Read.val_main_v10 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) :=
    funext fun j => congrFun (rows_eq (F := Ideal) m c) j
  -- the reference's loss is the tail of its similarities and denominators
  have hRt : Cert.ReferenceIdeal.Read.val_main_v36 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = tail (Cert.ReferenceIdeal.Read.val_main_v15 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
          (Cert.ReferenceIdeal.Read.val_main_v29 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) := by
    unfold Cert.ReferenceIdeal.Read.val_main_v36 Cert.ReferenceIdeal.Read.val_main_v35 Cert.ReferenceIdeal.Read.val_main_v34
      Cert.ReferenceIdeal.Read.val_main_v33 Cert.ReferenceIdeal.Read.val_main_v32 Cert.ReferenceIdeal.Read.val_main_v31
      Cert.ReferenceIdeal.Read.val_main_v30 Cert.ReferenceIdeal.Read.val_main_cst_5 Cert.ReferenceIdeal.Read.val_main_cst_6
      Cert.ReferenceIdeal.Read.val_main_cst_7
    rfl
  simp only [Cert.KernelIdeal.Gen.hostOps1, List.flatten_cons, List.flatten_nil, List.append_nil]
  after_results
  rw [Cert.KernelIdeal.Fr.Wx_v21, Cert.KernelIdeal.Fr.Wx_of_ne m c Cert.KernelIdeal.main_v18 (by decide), hRt]
  refine congrArg₂ tail (pos_eq (F := Ideal) m c) (funext fun i => ?_)
  obtain ⟨r, rfl⟩ : ∃ r : Fin 8192, i = ix1 r := ⟨i 0, ValueIdx.eq_ix1 i⟩
  refine Eq.trans ?_ (hR r).symm
  show shapeCast Cert.KernelIdeal.S8192 ((Cert.KernelIdeal.Fr.dats (F := Ideal) m 0 c).arrAt 2 Cert.KernelIdeal.cfg0.N)
      Cert.KernelIdeal.Gen.shapeCasts_S8192x1_S8192 (ix1 r) = _
  refine (shapeCast_apply _ Cert.KernelIdeal.Gen.shapeCasts_S8192x1_S8192 (ix1 r) (ix2 r (0 : Fin 1)) ?_).trans
    ((hK (ix2 r (0 : Fin 1))).trans (congrArg (fun z => Cert.Spec.denom z r) hrows))
  rw [Shape.rowMajor_val_two, Shape.rowMajor_val_one]
  show r.val * 1 + 0 = r.val
  omega

end Cert.HostSide

end
-- ==== Proof.lean ====
/- The two programs compute one loss. The kernel program normalises the rows of its two inputs on the host, sums
   for each of the 8192 normalised rows the exponentials exp (2 |<z_r, z_c>|) over every OTHER row c inside one
   pipelined region (the rows' array is read through two windows at once: a block of 1024 rows, and the whole array,
   resident), and folds the row sums into the loss on the host. The reference forms the whole 8192 x 8192 similarity
   matrix, masks its diagonal arithmetically and sums its rows. Over the extended reals both row sums are the
   denominator Cert.Spec.denom of the same normalised rows (a sum of 8 blocks of 1024 terms is the sum of the 8192
   terms, in any order), and the host operations around them are the same in both programs.
   The frames of the two kernel programs are one text read at the two instances (FrameK, FrameKI): the region's run
   with the rows' buffer dealt by halves to the two windows that stage it; the reference's frame is its run. -/
import proofs.«155286_j21260088115612_1_alg».proof.Defs
import proofs.«155286_j21260088115612_1_alg».proof.Proof.Gen.Kernel
import proofs.«155286_j21260088115612_1_alg».proof.Proof.Gen.KernelIdeal
import proofs.«155286_j21260088115612_1_alg».proof.Proof.Gen.ReferenceIdeal
import proofs.«155286_j21260088115612_1_alg».proof.Proof.Gen.Pre_finite_inputs
import proofs.«155286_j21260088115612_1_alg».proof.Proof.Gen.ReferenceIdeal.Run
import proofs.«155286_j21260088115612_1_alg».proof.Proof.Gen.ReferenceIdeal.Read
import proofs.«155286_j21260088115612_1_alg».proof.Proof.FrameK
import proofs.«155286_j21260088115612_1_alg».proof.Proof.FrameKI
import proofs.«155286_j21260088115612_1_alg».proof.Proof.RefDenom
import proofs.«155286_j21260088115612_1_alg».proof.Proof.KernelValue
import proofs.«155286_j21260088115612_1_alg».proof.Proof.HostSide
import Idealize.ShloMosaic.Adequacy
import Idealize.ShloMosaic.Init

noncomputable section

namespace Cert.Proof

open Idealize.ShloMosaic Idealize.SL.Sem

/-- The kernel program as printed runs to the end and leaves its arguments unchanged. -/
theorem frame_k : Cert.frame_Kernel := fun m ρ _ => Cert.Kernel.Fr.frame m ρ

/-- So does its idealization. -/
theorem frame_ki : Cert.frame_KernelIdeal := fun m ρ _ => Cert.KernelIdeal.Fr.frame m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the two inputs both programs end with the same loss: the kernel program's run names
    its loss as the later host operations' value from the region's exit; the region's row sums and the reference's
    are the same denominators, and the operations around them coincide. -/
theorem algebraic : Cert.algebraic_KernelIdeal_ReferenceIdeal := by
  intro m ρ m' ρ' _ hagree
  refine ⟨fun c => StableHlo.after (List.flatten [Cert.KernelIdeal.Gen.hostOps1]) (Cert.KernelIdeal.Fr.Wx (F := Ideal) m c)
    (Proc.devRef .tc Cert.KernelIdeal.main_v29), Cert.KernelIdeal.Fr.run_named m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq]
  exact (Cert.HostSide.kernel_loss_eq m c _ _ (hagree c).1.symm (hagree c).2.symm
    (Cert.KernelIdeal.Val.sums_final m c) (Cert.RefSide.ref_denom _ _)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
